-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128x64 .f32) (main_arg13 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg12
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x64 .f32) (main_arg13 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x64 .f32) (main_arg13 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x64 .f32) (main_arg13 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S400x10000 : Shape := ⟨2, ![400, 10000]⟩
abbrev S400x128 : Shape := ⟨2, ![400, 128]⟩
abbrev S10000x64 : Shape := ⟨2, ![10000, 64]⟩
abbrev S400x64 : Shape := ⟨2, ![400, 64]⟩
abbrev S1x64 : Shape := ⟨2, ![1, 64]⟩

abbrev nBuf : Space → Nat
  | .hbm => 28
  | .vmem => 44
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S10000x10000, .bf16⟩
  | .hbm, ⟨15, _⟩ => ⟨S10000x128, .bf16⟩
  | .hbm, ⟨16, _⟩ => ⟨S1x128, .f32⟩
  | .hbm, ⟨17, _⟩ => ⟨S10000x128, .bf16⟩
  | .hbm, ⟨18, _⟩ => ⟨S1x128, .f32⟩
  | .hbm, ⟨19, _⟩ => ⟨S10000x128, .bf16⟩
  | .hbm, ⟨20, _⟩ => ⟨S1x128, .f32⟩
  | .hbm, ⟨21, _⟩ => ⟨S10000x128, .bf16⟩
  | .hbm, ⟨22, _⟩ => ⟨S1x128, .f32⟩
  | .hbm, ⟨23, _⟩ => ⟨S10000x128, .bf16⟩
  | .hbm, ⟨24, _⟩ => ⟨S1x128, .f32⟩
  | .hbm, ⟨25, _⟩ => ⟨S10000x64, .bf16⟩
  | .hbm, ⟨26, _⟩ => ⟨S1x64, .f32⟩
  | .hbm, ⟨27, _⟩ => ⟨S10000x64, .f32⟩
  | .local _ .vmem, ⟨0, _⟩ => ⟨S10000x128, .f32⟩
  | .local _ .vmem, ⟨1, _⟩ => ⟨S128x128, .f32⟩
  | .local _ .vmem, ⟨2, _⟩ => ⟨S10000x128, .bf16⟩
  | .local _ .vmem, ⟨3, _⟩ => ⟨S400x10000, .bf16⟩
  | .local _ .vmem, ⟨4, _⟩ => ⟨S400x10000, .bf16⟩
  | .local _ .vmem, ⟨5, _⟩ => ⟨S10000x128, .bf16⟩
  | .local _ .vmem, ⟨6, _⟩ => ⟨S1x128, .f32⟩
  | .local _ .vmem, ⟨7, _⟩ => ⟨S128x128, .f32⟩
  | .local _ .vmem, ⟨8, _⟩ => ⟨S400x128, .bf16⟩
  | .local _ .vmem, ⟨9, _⟩ => ⟨S400x128, .bf16⟩
  | .local _ .vmem, ⟨10, _⟩ => ⟨S400x10000, .bf16⟩
  | .local _ .vmem, ⟨11, _⟩ => ⟨S400x10000, .bf16⟩
  | .local _ .vmem, ⟨12, _⟩ => ⟨S10000x128, .bf16⟩
  | .local _ .vmem, ⟨13, _⟩ => ⟨S1x128, .f32⟩
  | .local _ .vmem, ⟨14, _⟩ => ⟨S128x128, .f32⟩
  | .local _ .vmem, ⟨15, _⟩ => ⟨S400x128, .bf16⟩
  | .local _ .vmem, ⟨16, _⟩ => ⟨S400x128, .bf16⟩
  | .local _ .vmem, ⟨17, _⟩ => ⟨S400x10000, .bf16⟩
  | .local _ .vmem, ⟨18, _⟩ => ⟨S400x10000, .bf16⟩
  | .local _ .vmem, ⟨19, _⟩ => ⟨S10000x128, .bf16⟩
  | .local _ .vmem, ⟨20, _⟩ => ⟨S1x128, .f32⟩
  | .local _ .vmem, ⟨21, _⟩ => ⟨S128x128, .f32⟩
  | .local _ .vmem, ⟨22, _⟩ => ⟨S400x128, .bf16⟩
  | .local _ .vmem, ⟨23, _⟩ => ⟨S400x128, .bf16⟩
  | .local _ .vmem, ⟨24, _⟩ => ⟨S400x10000, .bf16⟩
  | .local _ .vmem, ⟨25, _⟩ => ⟨S400x10000, .bf16⟩
  | .local _ .vmem, ⟨26, _⟩ => ⟨S10000x128, .bf16⟩
  | .local _ .vmem, ⟨27, _⟩ => ⟨S1x128, .f32⟩
  | .local _ .vmem, ⟨28, _⟩ => ⟨S128x128, .f32⟩
  | .local _ .vmem, ⟨29, _⟩ => ⟨S400x128, .bf16⟩
  | .local _ .vmem, ⟨30, _⟩ => ⟨S400x128, .bf16⟩
  | .local _ .vmem, ⟨31, _⟩ => ⟨S400x10000, .bf16⟩
  | .local _ .vmem, ⟨32, _⟩ => ⟨S400x10000, .bf16⟩
  | .local _ .vmem, ⟨33, _⟩ => ⟨S10000x128, .bf16⟩
  | .local _ .vmem, ⟨34, _⟩ => ⟨S1x128, .f32⟩
  | .local _ .vmem, ⟨35, _⟩ => ⟨S128x64, .f32⟩
  | .local _ .vmem, ⟨36, _⟩ => ⟨S400x64, .bf16⟩
  | .local _ .vmem, ⟨37, _⟩ => ⟨S400x64, .bf16⟩
  | .local _ .vmem, ⟨38, _⟩ => ⟨S400x10000, .bf16⟩
  | .local _ .vmem, ⟨39, _⟩ => ⟨S400x10000, .bf16⟩
  | .local _ .vmem, ⟨40, _⟩ => ⟨S10000x64, .bf16⟩
  | .local _ .vmem, ⟨41, _⟩ => ⟨S1x64, .f32⟩
  | .local _ .vmem, ⟨42, _⟩ => ⟨S400x64, .f32⟩
  | .local _ .vmem, ⟨43, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg4_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg4_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg4_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg3_0 : Ref sig .tc := ⟨.vmem, 42, rfl⟩
abbrev cc6_stg3_1 : Ref sig .tc := ⟨.vmem, 43, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem4_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem4_0 : DmaSem sig := 29
abbrev cc4_sem4_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem4_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem3_0 : DmaSem sig := 42
abbrev cc6_sem3_1 : DmaSem sig := 43

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S400x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S400x128 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S400x64 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S400x10000 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S10000x64 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S400x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  inb_S128x64_S128x64_0_0 : ∀ a, (![0, 0] : Fin 2 → Nat) a + S128x64.size a ≤ S128x64.size a
  h_S128x64 : 0 < S128x64.numel
  inb_S400x64_S400x64_0_0 : ∀ a, (![0, 0] : Fin 2 → Nat) a + S400x64.size a ≤ S400x64.size a
  h_S400x64 : 0 < S400x64.numel
  packedbf16_S400x64_S400x64_0_0 : (Rect.unit (s := S400x64) ![0, 0] S400x64.size inb_S400x64_S400x64_0_0).PackedRows (EltTy.packing .bf16)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .bf16 = 32 ∨ (Rect.block (s := S10000x128) S400x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x128.size a ≤ S10000x128.size a
  hwx2_4 : ∀ i : grid2.Coords, EltTy.bits .bf16 = 32 ∨ (Rect.block (s := S10000x128) S400x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S400x128.size a ≤ S10000x128.size a
  hwx3_4 : ∀ i : grid3.Coords, EltTy.bits .bf16 = 32 ∨ (Rect.block (s := S10000x128) S400x128.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .bf16 = 32 ∨ (Rect.block (s := S10000x10000) S400x10000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S10000x128.size a
  hwx4_1 : ∀ i : grid4.Coords, EltTy.bits .bf16 = 32 ∨ (Rect.block (s := S10000x128) S10000x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S400x128.size a ≤ S10000x128.size a
  hwx4_4 : ∀ i : grid4.Coords, EltTy.bits .bf16 = 32 ∨ (Rect.block (s := S10000x128) S400x128.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x10000.size a ≤ S10000x10000.size a
  hwx5_0 : ∀ i : grid5.Coords, EltTy.bits .bf16 = 32 ∨ (Rect.block (s := S10000x10000) S400x10000.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S10000x128.size a
  hwx5_1 : ∀ i : grid5.Coords, EltTy.bits .bf16 = 32 ∨ (Rect.block (s := S10000x128) S10000x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x64.size a ≤ S128x64.size a
  hwx5_3 : ∀ i : grid5.Coords, EltTy.bits .f32 = 32 ∨ (Rect.block (s := S128x64) S128x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S400x64.size a ≤ S10000x64.size a
  hwx5_4 : ∀ i : grid5.Coords, EltTy.bits .bf16 = 32 ∨ (Rect.block (s := S10000x64) S400x64.size (cc5_transform_4 i) (hinb5_4 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S400x10000.size a ≤ S10000x10000.size a
  hwx6_0 : ∀ i : grid6.Coords, EltTy.bits .bf16 = 32 ∨ (Rect.block (s := S10000x10000) S400x10000.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S10000x64.size a
  hwx6_1 : ∀ i : grid6.Coords, EltTy.bits .bf16 = 32 ∨ (Rect.block (s := S10000x64) S10000x64.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S400x64.size a ≤ S10000x64.size a
  hwx6_3 : ∀ i : grid6.Coords, EltTy.bits .f32 = 32 ∨ (Rect.block (s := S10000x64) S400x64.size (cc6_transform_3 i) (hinb6_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S400x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v0) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v7) S400x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v0) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v7) S10000x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v8) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v9) S400x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v0) S400x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v9) S10000x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v10) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg12) S128x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v11) S400x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v0) S400x10000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v11) S10000x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v12) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v13) S400x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩

abbrev nBuf : Space → Nat
  | .hbm => 59
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S1x128, .f32⟩
  | .hbm, ⟨25, _⟩ => ⟨S10000x128, .f32⟩
  | .hbm, ⟨26, _⟩ => ⟨S10000x128, .f32⟩
  | .hbm, ⟨27, _⟩ => ⟨S_, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S1x128, .f32⟩
  | .hbm, ⟨33, _⟩ => ⟨S10000x128, .f32⟩
  | .hbm, ⟨34, _⟩ => ⟨S10000x128, .f32⟩
  | .hbm, ⟨35, _⟩ => ⟨S_, .f32⟩
  | .hbm, ⟨36, _⟩ => ⟨S10000x128, .f32⟩
  | .hbm, ⟨37, _⟩ => ⟨S10000x128, .f32⟩
  | .hbm, ⟨38, _⟩ => ⟨S10000x128, .f32⟩
  | .hbm, ⟨39, _⟩ => ⟨S10000x128, .f32⟩
  | .hbm, ⟨40, _⟩ => ⟨S1x128, .f32⟩
  | .hbm, ⟨41, _⟩ => ⟨S10000x128, .f32⟩
  | .hbm, ⟨42, _⟩ => ⟨S10000x128, .f32⟩
  | .hbm, ⟨43, _⟩ => ⟨S_, .f32⟩
  | .hbm, ⟨44, _⟩ => ⟨S10000x128, .f32⟩
  | .hbm, ⟨45, _⟩ => ⟨S10000x128, .f32⟩
  | .hbm, ⟨46, _⟩ => ⟨S10000x128, .f32⟩
  | .hbm, ⟨47, _⟩ => ⟨S10000x128, .f32⟩
  | .hbm, ⟨48, _⟩ => ⟨S1x128, .f32⟩
  | .hbm, ⟨49, _⟩ => ⟨S10000x128, .f32⟩
  | .hbm, ⟨50, _⟩ => ⟨S10000x128, .f32⟩
  | .hbm, ⟨51, _⟩ => ⟨S_, .f32⟩
  | .hbm, ⟨52, _⟩ => ⟨S10000x128, .f32⟩
  | .hbm, ⟨53, _⟩ => ⟨S10000x128, .f32⟩
  | .hbm, ⟨54, _⟩ => ⟨S10000x64, .f32⟩
  | .hbm, ⟨55, _⟩ => ⟨S10000x64, .f32⟩
  | .hbm, ⟨56, _⟩ => ⟨S1x64, .f32⟩
  | .hbm, ⟨57, _⟩ => ⟨S10000x64, .f32⟩
  | .hbm, ⟨58, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_cst : Ref sig .tc := ⟨.hbm, 27, rfl⟩
abbrev main_call1_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call2_cst : Ref sig .tc := ⟨.hbm, 35, rfl⟩
abbrev main_call2_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call3_cst : Ref sig .tc := ⟨.hbm, 43, rfl⟩
abbrev main_call3_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call4_cst : Ref sig .tc := ⟨.hbm, 51, rfl⟩
abbrev main_call4_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.GcnLayer.lean ====
/-
  One layer of a graph convolution on the extended reals, entry by entry.

  With an adjacency matrix `a`, a support matrix `s`, a bias row `b` and the next layer's weights `w`, a hidden
  layer computes `relu (a · s + b) · w`: the entry `(p, q)` is the sum over `k` of
  `max (∑ j, a (p, j) · s (j, k) + b k) 0 · w (k, q)`. Only row `p` of `a` enters, so a block of rows of `a` gives
  the same rows of the result. The first layer's support is the plain product `x · w`, and the last layer stops at
  `a · s + b`. Below, each of these as a function of the two coordinates, and the vector operations that compute
  it — products into a zero accumulator, a bias row spread over the rows, a maximum against the zero word — read at
  an entry. Format changes are the identity here, and the zero the maximum is taken against is kept as the word's
  value, the same on both sides of a comparison.
-/
import Idealize.ShloMosaic.PureOps.Ideal
import Idealize.ShloMosaic.PureOps.Ideal.Laws
import Idealize.ShloMosaic.Lib.ValueIdx
import Idealize.ShloMosaic.Lib.Pipeline.Value
import proofs.«178979_g56126632624284_cont_9to1_m_1356_2_alg».proof.Proof.LibRowDims

noncomputable section

open scoped BigOperators

namespace Cert.Gcn

open Idealize.ShloMosaic Idealize.ShloMosaic.ValueIdx Idealize.ShloMosaic.RowDims

/-! ## The layers as functions of the two coordinates -/

/-- The matrix product `x · w` at the entry `(p, q)`. -/
def prod {R C D : Nat} (x : (⟨2, ![R, C]⟩ : Shape).Idx → EReal) (w : (⟨2, ![C, D]⟩ : Shape).Idx → EReal)
    (p : Fin R) (q : Fin D) : EReal :=
  ∑ k : Fin C, x (ix2 p k) * w (ix2 k q)

/-- The rectified activation `relu (a · s + b)` at the entry `(p, k)`; the zero is the zero word's value. -/
def hidden {P R C : Nat} (a : (⟨2, ![P, R]⟩ : Shape).Idx → EReal) (s : (⟨2, ![R, C]⟩ : Shape).Idx → EReal)
    (b : Fin C → EReal) (p : Fin P) (k : Fin C) : EReal :=
  max (prod a s p k + b k) (Ideal.ofBits .f32 0x00000000#32)

/-- A hidden layer followed by the next layer's weights, `relu (a · s + b) · w`, at the entry `(p, q)`. -/
def layer {P R C D : Nat} (a : (⟨2, ![P, R]⟩ : Shape).Idx → EReal) (s : (⟨2, ![R, C]⟩ : Shape).Idx → EReal)
    (b : Fin C → EReal) (w : (⟨2, ![C, D]⟩ : Shape).Idx → EReal) (p : Fin P) (q : Fin D) : EReal :=
  ∑ k : Fin C, hidden a s b p k * w (ix2 k q)

/-- The last layer, `a · s + b` with no rectifier, at the entry `(p, q)`. -/
def output {P R D : Nat} (a : (⟨2, ![P, R]⟩ : Shape).Idx → EReal) (s : (⟨2, ![R, D]⟩ : Shape).Idx → EReal)
    (b : Fin D → EReal) (p : Fin P) (q : Fin D) : EReal :=
  prod a s p q + b q

/-- A function of the two coordinates as a rank-2 array. -/
def arr2 {R D : Nat} (f : Fin R → Fin D → EReal) : (⟨2, ![R, D]⟩ : Shape).Idx → EReal :=
  fun i => f ⟨(i 0).val, idx2_lt0 i⟩ ⟨(i 1).val, idx2_lt1 i⟩

theorem arr2_ix2 {R D : Nat} (f : Fin R → Fin D → EReal) (p : Fin R) (q : Fin D) : arr2 f (ix2 p q) = f p q := rfl

/-- Two rank-2 arrays that agree at every pair of coordinates are equal. -/
theorem ext2 {R D : Nat} {u v : (⟨2, ![R, D]⟩ : Shape).Idx → EReal} (h : ∀ (p : Fin R) (q : Fin D), u (ix2 p q) = v (ix2 p q)) :
    u = v := by
  funext i
  rw [eq_ix2 i]
  exact h _ _

/-! ## Only one row of the left factor enters an entry -/

/-- The product at `(p, q)` depends on the left factor only through its row `p`, and two left factors whose rows
    `p` and `p'` agree give the same entries there. -/
theorem prod_congr_row {P P' R C : Nat} (a : (⟨2, ![P, R]⟩ : Shape).Idx → EReal) (a' : (⟨2, ![P', R]⟩ : Shape).Idx → EReal)
    (s : (⟨2, ![R, C]⟩ : Shape).Idx → EReal) (p : Fin P) (p' : Fin P') (h : ∀ j : Fin R, a (ix2 p j) = a' (ix2 p' j))
    (k : Fin C) : prod a s p k = prod a' s p' k := by
  unfold prod
  exact Finset.sum_congr rfl fun j _ => by rw [h j]

theorem layer_congr_row {P P' R C D : Nat} (a : (⟨2, ![P, R]⟩ : Shape).Idx → EReal) (a' : (⟨2, ![P', R]⟩ : Shape).Idx → EReal)
    (s : (⟨2, ![R, C]⟩ : Shape).Idx → EReal) (b : Fin C → EReal) (w : (⟨2, ![C, D]⟩ : Shape).Idx → EReal)
    (p : Fin P) (p' : Fin P') (h : ∀ j : Fin R, a (ix2 p j) = a' (ix2 p' j)) (q : Fin D) :
    layer a s b w p q = layer a' s b w p' q := by
  unfold layer hidden
  exact Finset.sum_congr rfl fun k _ => by rw [prod_congr_row a a' s p p' h k]

theorem output_congr_row {P P' R D : Nat} (a : (⟨2, ![P, R]⟩ : Shape).Idx → EReal) (a' : (⟨2, ![P', R]⟩ : Shape).Idx → EReal)
    (s : (⟨2, ![R, D]⟩ : Shape).Idx → EReal) (b : Fin D → EReal)
    (p : Fin P) (p' : Fin P') (h : ∀ j : Fin R, a (ix2 p j) = a' (ix2 p' j)) (q : Fin D) :
    output a s b p q = output a' s b p' q := by
  unfold output
  rw [prod_congr_row a a' s p p' h q]

/-! ## The vector operations that compute a layer, read at an entry -/

/-- A bias row `[1, C]` spread over `P` rows reads its entry `(0, k)` at every `(p, k)`. -/
theorem bias_rows_apply {P C : Nat} (hbc : (⟨2, ![1, C]⟩ : Shape).Broadcasts ⟨2, ![P, C]⟩)
    (b : (⟨2, ![1, C]⟩ : Shape).Idx → EReal) (p : Fin P) (k : Fin C) :
    broadcastTo ⟨2, ![P, C]⟩ b hbc (ix2 p k) = b (ix2 (0 : Fin 1) k) := by
  refine broadcastTo_apply b hbc (ix2 p k) (ix2 (0 : Fin 1) k) fun a => ?_
  match a with
  | ⟨0, _⟩ => show (0 : Nat) = if (1 : Nat) = 1 then 0 else _; rw [if_pos rfl]
  | ⟨1, _⟩ =>
    show k.val = if C = 1 then 0 else k.val
    by_cases hC : C = 1
    · rw [if_pos hC]; have := k.isLt; omega
    · rw [if_neg hC]

/-- The first layer's support: a product into the zero accumulator, narrowed, is `x · w` entry by entry. -/
theorem support_body_apply {R C D : Nat} (ht : FTy.bits .bf16 < FTy.bits .f32)
    (x : FVec Ideal ⟨2, ![R, C]⟩ .f32) (w : FVec Ideal ⟨2, ![C, D]⟩ .f32) (p : Fin R) (q : Fin D) :
    (truncf .bf16 (matmul (DotDims.plain R C D) none x w (constant ⟨2, ![R, D]⟩ .f32 0x00000000#32)) ht
        : FVec Ideal ⟨2, ![R, D]⟩ .bf16) (ix2 p q)
      = prod x w p q :=
  matmul_plain_zero_apply none x w p q

/-- The rectified activation as the vector operations compute it: the product into the zero accumulator, the bias
    row spread over the rows and added, the maximum against the zero word. -/
theorem hidden_body_apply {P R C : Nat}
    (hA : (⟨2, ![P, R]⟩ : Shape).ShapeCasts ⟨2, ![P, R]⟩) (hS : (⟨2, ![R, C]⟩ : Shape).ShapeCasts ⟨2, ![R, C]⟩)
    (hB : (⟨2, ![1, C]⟩ : Shape).ShapeCasts ⟨2, ![1, C]⟩) (hbc : (⟨2, ![1, C]⟩ : Shape).Broadcasts ⟨2, ![P, C]⟩)
    (a : FVec Ideal ⟨2, ![P, R]⟩ .bf16) (s : FVec Ideal ⟨2, ![R, C]⟩ .bf16) (b : FVec Ideal ⟨2, ![1, C]⟩ .f32)
    (p : Fin P) (k : Fin C) :
    maximumf (addf (matmul (DotDims.plain P R C) none (shapeCast ⟨2, ![P, R]⟩ a hA) (shapeCast ⟨2, ![R, C]⟩ s hS)
          (constant ⟨2, ![P, C]⟩ .f32 0x00000000#32))
        (broadcastTo ⟨2, ![P, C]⟩ (shapeCast ⟨2, ![1, C]⟩ b hB) hbc))
      (broadcast ⟨2, ![P, C]⟩ (Scalar.ofBits (F := Ideal) .f32 0x00000000#32)) (ix2 p k)
      = hidden a s (fun k => b (ix2 (0 : Fin 1) k)) p k := by
  rw [shapeCast_self, shapeCast_self, shapeCast_self]
  show max (FloatOps.matmul (DotDims.plain P R C) none a s (constant ⟨2, ![P, C]⟩ .f32 0x00000000#32) (ix2 p k)
      + broadcastTo ⟨2, ![P, C]⟩ b hbc (ix2 p k)) (Ideal.ofBits .f32 0x00000000#32) = _
  rw [matmul_plain_zero_apply, bias_rows_apply]
  rfl

/-- A hidden layer as the vector operations compute it: the rectified activation times the next weights, into the
    zero accumulator, narrowed. -/
theorem layer_body_apply {P R C D : Nat}
    (hA : (⟨2, ![P, R]⟩ : Shape).ShapeCasts ⟨2, ![P, R]⟩) (hS : (⟨2, ![R, C]⟩ : Shape).ShapeCasts ⟨2, ![R, C]⟩)
    (hB : (⟨2, ![1, C]⟩ : Shape).ShapeCasts ⟨2, ![1, C]⟩) (hbc : (⟨2, ![1, C]⟩ : Shape).Broadcasts ⟨2, ![P, C]⟩)
    (ht : FTy.bits .bf16 < FTy.bits .f32)
    (a : FVec Ideal ⟨2, ![P, R]⟩ .bf16) (s : FVec Ideal ⟨2, ![R, C]⟩ .bf16) (b : FVec Ideal ⟨2, ![1, C]⟩ .f32)
    (w : FVec Ideal ⟨2, ![C, D]⟩ .f32) (p : Fin P) (q : Fin D) :
    (truncf .bf16 (matmul (DotDims.plain P C D) none
        (maximumf (addf (matmul (DotDims.plain P R C) none (shapeCast ⟨2, ![P, R]⟩ a hA) (shapeCast ⟨2, ![R, C]⟩ s hS)
              (constant ⟨2, ![P, C]⟩ .f32 0x00000000#32))
            (broadcastTo ⟨2, ![P, C]⟩ (shapeCast ⟨2, ![1, C]⟩ b hB) hbc))
          (broadcast ⟨2, ![P, C]⟩ (Scalar.ofBits (F := Ideal) .f32 0x00000000#32)))
        w (constant ⟨2, ![P, D]⟩ .f32 0x00000000#32)) ht : FVec Ideal ⟨2, ![P, D]⟩ .bf16) (ix2 p q)
      = layer a s (fun k => b (ix2 (0 : Fin 1) k)) w p q := by
  show FloatOps.matmul (DotDims.plain P C D) none _ w (constant ⟨2, ![P, D]⟩ .f32 0x00000000#32) (ix2 p q) = _
  rw [matmul_plain_zero_apply]
  unfold layer
  refine Finset.sum_congr rfl fun k _ => ?_
  rw [hidden_body_apply hA hS hB hbc a s b p k]

/-- The last layer as the vector operations compute it: the product into the zero accumulator plus the bias row. -/
theorem output_body_apply {P R D : Nat}
    (hA : (⟨2, ![P, R]⟩ : Shape).ShapeCasts ⟨2, ![P, R]⟩) (hS : (⟨2, ![R, D]⟩ : Shape).ShapeCasts ⟨2, ![R, D]⟩)
    (hB : (⟨2, ![1, D]⟩ : Shape).ShapeCasts ⟨2, ![1, D]⟩) (hbc : (⟨2, ![1, D]⟩ : Shape).Broadcasts ⟨2, ![P, D]⟩)
    (a : FVec Ideal ⟨2, ![P, R]⟩ .bf16) (s : FVec Ideal ⟨2, ![R, D]⟩ .bf16) (b : FVec Ideal ⟨2, ![1, D]⟩ .f32)
    (p : Fin P) (q : Fin D) :
    addf (matmul (DotDims.plain P R D) none (shapeCast ⟨2, ![P, R]⟩ a hA) (shapeCast ⟨2, ![R, D]⟩ s hS)
          (constant ⟨2, ![P, D]⟩ .f32 0x00000000#32))
        (broadcastTo ⟨2, ![P, D]⟩ (shapeCast ⟨2, ![1, D]⟩ b hB) hbc) (ix2 p q)
      = output a s (fun k => b (ix2 (0 : Fin 1) k)) p q := by
  rw [shapeCast_self, shapeCast_self, shapeCast_self]
  show FloatOps.matmul (DotDims.plain P R D) none a s (constant ⟨2, ![P, D]⟩ .f32 0x00000000#32) (ix2 p q)
      + broadcastTo ⟨2, ![P, D]⟩ b hbc (ix2 p q) = _
  rw [matmul_plain_zero_apply, bias_rows_apply]
  rfl

end Cert.Gcn

end
-- ==== Proof.Region0.lean ====
import proofs.«178979_g56126632624284_cont_9to1_m_1356_2_alg».proof.Proof.Gen.KernelIdeal.Frame
import proofs.«178979_g56126632624284_cont_9to1_m_1356_2_alg».proof.Proof.GcnLayer

set_option maxRecDepth 16384

noncomputable section

open scoped BigOperators

namespace Cert.KernelIdeal.Layers

open Idealize.ShloMosaic Idealize.ShloMosaic.TcCoe Idealize.ShloMosaic.ValueIdx Idealize.SL.Sem
open Idealize.ShloMosaic.Pipeline (Dat Cfg Window)
open Cert.KernelIdeal Cert.KernelIdeal.Gen

/-
  The first pallas_call (the first layer's support). It has no grid: its one point reads the whole feature matrix
  and the whole first weight matrix and writes the whole product `x · w`.
-/

variable (V : (c : Dev nD) → (b : Ref sig .tc) → Buf (Elt Ideal) ((c : Thread nD τ).loc b))

theorem zero_offsets0 : (![0, 0] : Fin 2 → Nat) = fun _ => 0 := funext fun a => by fin_cases a <;> rfl

/-- The body's one stored value at an entry: the product of the loaded matrices. -/
theorem pay0_apply (x0 : Vec Ideal S10000x128 .f32) (x1 : Vec Ideal S128x128 .f32) (p : Fin 10000) (q : Fin 128) :
    k0_pay1 (F := Ideal) x0 x1 (ix2 p q) = Cert.Gcn.prod x0 x1 p q := by
  unfold k0_pay1
  exact Cert.Gcn.support_body_apply _ x0 x1 p q

/-- The feature window's one block is its whole array. -/
theorem blk0_0 (c : Dev nD) (t : Fin cfg0.N) : (iblk0 V c 0 t : S10000x128.Idx → EReal) = V c main_arg0 := by
  funext y
  show V c main_arg0 (((cfg0.win 0).blk t).view.emb y) = V c main_arg0 y
  refine congrArg (V c main_arg0) (funext fun a => Fin.ext ?_)
  match a with
  | ⟨0, _⟩ => show 0 * 10000 + 1 * (y 0).val = (y 0).val; omega
  | ⟨1, _⟩ => show 0 * 128 + 1 * (y 1).val = (y 1).val; omega

/-- The weights window's one block is its whole array. -/
theorem blk0_1 (c : Dev nD) (t : Fin cfg0.N) : (iblk0 V c 1 t : S128x128.Idx → EReal) = V c main_arg2 := by
  funext y
  show V c main_arg2 (((cfg0.win 1).blk t).view.emb y) = V c main_arg2 y
  refine congrArg (V c main_arg2) (funext fun a => Fin.ext ?_)
  match a with
  | ⟨0, _⟩ => show 0 * 128 + 1 * (y 0).val = (y 0).val; omega
  | ⟨1, _⟩ => show 0 * 128 + 1 * (y 1).val = (y 1).val; omega

/-- The output window's one block is its whole array: an entry of the block is the same entry of the array. -/
theorem emb0_2 (t : Fin cfg0.N) (y : S10000x128.Idx) : ((cfg0.win 2).blk t).view.emb y = y := by
  refine funext fun a => Fin.ext ?_
  match a with
  | ⟨0, _⟩ => show 0 * 10000 + 1 * (y 0).val = (y 0).val; omega
  | ⟨1, _⟩ => show 0 * 128 + 1 * (y 1).val = (y 1).val; omega

/-- What the array ends holding: the product of the arrays the region finds. -/
def G0 (c : Dev nD) : S10000x128.Idx → EReal := Cert.Gcn.arr2 (Cert.Gcn.prod (V c main_arg0) (V c main_arg2))

/-- What the one point writes back is that matrix. -/
theorem flushed0 (c : Dev nD) (t : Fin cfg0.N) :
    (dat0 (F := Ideal) V c).flushed 2 t = ((cfg0.win 2).blk t).view.read (Elt Ideal) (G0 V c) := by
  show (cfg0.win 2).cut (grid0.coords t) ((dat0 V c).after 2 t) = _
  rw [after0_2]
  unfold out0_2
  rw [View.canon_unit_zero zero_offsets0]
  simp only [View.ld_unit_zero (S := S10000x128) zero_offsets0, View.ld_unit_zero (S := S128x128) zero_offsets0]
  funext j
  show k0_pay1 (F := Ideal) (iblk0 V c 0 t) (iblk0 V c 1 t) j = G0 V c (((cfg0.win 2).blk t).view.emb j)
  obtain ⟨p, q, rfl⟩ : ∃ (p : Fin 10000) (q : Fin 128), j = ix2 p q := ⟨j 0, j 1, eq_ix2 j⟩
  refine (pay0_apply (iblk0 V c 0 t) (iblk0 V c 1 t) p q).trans ?_
  rw [emb0_2 t (ix2 p q)]
  unfold G0
  rw [Cert.Gcn.arr2_ix2, blk0_0 V c t, blk0_1 V c t]

/-- The one block is the whole array. -/
theorem cover0 (i : S10000x128.Idx) : ∃ t : Fin cfg0.N, (cfg0.win 2).flush t = true ∧ i ∈ ((cfg0.win 2).blk t).view.set := by
  have hi0 : (i 0).val < 10000 := (i 0).isLt
  have hi1 : (i 1).val < 128 := (i 1).isLt
  refine ⟨t0_0, flush0_2 t0_0, ?_⟩
  show i ∈ ((View.whole main_v1).slice (win0_2.rect t0_0)).set
  rw [View.set_slice_whole, Rect.mem_set_unit]
  intro a
  match a with
  | ⟨0, _⟩ => show 0 * 10000 ≤ (i 0).val ∧ (i 0).val < 0 * 10000 + 10000; omega
  | ⟨1, _⟩ => show 0 * 128 ≤ (i 1).val ∧ (i 1).val < 0 * 128 + 128; omega

/-- THE ARRAY after the region: the product of the arrays it found, whatever those are named. -/
theorem final0 (c : Dev nD) (x : S10000x128.Idx → EReal) (w : S128x128.Idx → EReal)
    (hx : V c main_arg0 = x) (hw : V c main_arg2 = w) :
    (dat0 (F := Ideal) V c).arrAt 2 cfg0.N = Cert.Gcn.arr2 (Cert.Gcn.prod x w) := by
  subst hx hw
  exact (dat0 (F := Ideal) V c).arrAt_eq_of_cover 2 (G0 V c) (fun t _ => flushed0 V c t) cover0

end Cert.KernelIdeal.Layers

end
-- ==== Proof.Region1.lean ====
import proofs.«178979_g56126632624284_cont_9to1_m_1356_2_alg».proof.Proof.Gen.KernelIdeal.Frame
import proofs.«178979_g56126632624284_cont_9to1_m_1356_2_alg».proof.Proof.GcnLayer

set_option maxRecDepth 16384

noncomputable section

open scoped BigOperators

namespace Cert.KernelIdeal.Layers

open Idealize.ShloMosaic Idealize.ShloMosaic.TcCoe Idealize.ShloMosaic.ValueIdx Idealize.SL.Sem
open Idealize.ShloMosaic.Pipeline (Dat Cfg Window)
open Cert.KernelIdeal Cert.KernelIdeal.Gen

/-
  A hidden layer's pallas_call. Its grid has 25 points; point `t` reads rows
  `400 t … 400 t + 399` of the adjacency matrix, the whole support matrix, the bias row and the next weights, and
  writes rows `400 t … 400 t + 399` of `relu (adj · s + b) · w`. Since an entry of that matrix depends on the
  adjacency matrix only through its own row, the block a point writes is the block of ONE matrix, and the 25
  blocks tile the 10000 rows: the array ends at that matrix.
-/

variable (V : (c : Dev nD) → (b : Ref sig .tc) → Buf (Elt Ideal) ((c : Thread nD τ).loc b))

theorem zero_offsets1 : (![0, 0] : Fin 2 → Nat) = fun _ => 0 := funext fun a => by fin_cases a <;> rfl

/-- The body's one stored value at an entry: the hidden layer of the loaded blocks. -/
theorem pay1_apply (x0 : Vec Ideal S400x10000 .bf16) (x1 : Vec Ideal S10000x128 .bf16) (x2 : Vec Ideal S1x128 .f32)
    (x3 : Vec Ideal S128x128 .f32) (p : Fin 400) (q : Fin 128) :
    k1_pay1 (F := Ideal) x0 x1 x2 x3 (ix2 p q) = Cert.Gcn.layer x0 x1 (fun k => x2 (ix2 (0 : Fin 1) k)) x3 p q := by
  unfold k1_pay1
  exact Cert.Gcn.layer_body_apply _ _ _ _ _ x0 x1 x2 x3 p q

/-- The printed index maps over the grid: the adjacency rows and the output rows move with the point, the other
    three windows stay at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of point `t`'s block is row `400 t + p` of the array. -/
def row1 (t : Fin cfg1.N) (p : Fin 400) : Fin 10000 := ⟨t.val * 400 + p.val, by
  have ht : t.val < 25 := t.isLt
  have hp := p.isLt
  omega⟩

/-- The adjacency window's block at point `t` is rows `400 t …` of its array. -/
theorem blk1_0 (c : Dev nD) (t : Fin cfg1.N) (p : Fin 400) (j : Fin 10000) :
    iblk1 V c 0 t (ix2 p j) = V c main_v0 (ix2 (row1 t p) j) := by
  obtain ⟨e0, e1, -⟩ := idx1 t
  show V c main_v0 (((cfg1.win 0).blk t).view.emb (ix2 p j)) = V c main_v0 (ix2 (row1 t p) j)
  refine congrArg (V c main_v0) (funext fun a => Fin.ext ?_)
  match a with
  | ⟨0, _⟩ => show win1_0.index t (0 : Fin 2) * 400 + 1 * p.val = t.val * 400 + p.val; omega
  | ⟨1, _⟩ => show win1_0.index t (1 : Fin 2) * 10000 + 1 * j.val = j.val; omega

/-- The support window's one block is its whole array. -/
theorem blk1_1 (c : Dev nD) (t : Fin cfg1.N) : (iblk1 V c 1 t : S10000x128.Idx → EReal) = V c main_v1 := by
  obtain ⟨-, -, e0, e1, -⟩ := idx1 t
  funext y
  show V c main_v1 (((cfg1.win 1).blk t).view.emb y) = V c main_v1 y
  refine congrArg (V c main_v1) (funext fun a => Fin.ext ?_)
  match a with
  | ⟨0, _⟩ => show win1_1.index t (0 : Fin 2) * 10000 + 1 * (y 0).val = (y 0).val; omega
  | ⟨1, _⟩ => show win1_1.index t (1 : Fin 2) * 128 + 1 * (y 1).val = (y 1).val; omega

/-- The bias window's one block is its whole array. -/
theorem blk1_2 (c : Dev nD) (t : Fin cfg1.N) : (iblk1 V c 2 t : S1x128.Idx → EReal) = V c main_v2 := by
  obtain ⟨-, -, -, -, e0, e1, -⟩ := idx1 t
  funext y
  show V c main_v2 (((cfg1.win 2).blk t).view.emb y) = V c main_v2 y
  refine congrArg (V c main_v2) (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The weights window's one block is its whole array. -/
theorem blk1_3 (c : Dev nD) (t : Fin cfg1.N) : (iblk1 V c 3 t : S128x128.Idx → EReal) = V c main_arg4 := by
  obtain ⟨-, -, -, -, -, -, e0, e1, -⟩ := idx1 t
  funext y
  show V c main_arg4 (((cfg1.win 3).blk t).view.emb y) = V c main_arg4 y
  refine congrArg (V c main_arg4) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- Entry `(p, q)` of the output window's block at point `t` is entry `(400 t + p, q)` of its array. -/
theorem emb1_4 (t : Fin cfg1.N) (p : Fin 400) (q : Fin 128) :
    ((cfg1.win 4).blk t).view.emb (ix2 p q) = (ix2 (row1 t p) q : S10000x128.Idx) := by
  obtain ⟨-, -, -, -, -, -, -, -, e0, e1⟩ := idx1 t
  refine funext fun a => Fin.ext ?_
  match a with
  | ⟨0, _⟩ => show win1_4.index t (0 : Fin 2) * 400 + 1 * p.val = t.val * 400 + p.val; omega
  | ⟨1, _⟩ => show win1_4.index t (1 : Fin 2) * 128 + 1 * q.val = q.val; omega

/-- What the array ends holding: the hidden layer of the arrays the region finds. -/
def G1 (c : Dev nD) : S10000x128.Idx → EReal :=
  Cert.Gcn.arr2 (Cert.Gcn.layer (V c main_v0) (V c main_v1) (fun k => V c main_v2 (ix2 (0 : Fin 1) k)) (V c main_arg4))

/-- What point `t` writes back is block `t` of that one matrix. -/
theorem flushed1 (c : Dev nD) (t : Fin cfg1.N) :
    (dat1 (F := Ideal) V c).flushed 4 t = ((cfg1.win 4).blk t).view.read (Elt Ideal) (G1 V c) := by
  show (cfg1.win 4).cut (grid1.coords t) ((dat1 V c).after 4 t) = _
  rw [after1_4]
  unfold out1_4
  rw [View.canon_unit_zero zero_offsets1]
  simp only [View.ld_unit_zero (S := S400x10000) zero_offsets1, View.ld_unit_zero (S := S10000x128) zero_offsets1,
    View.ld_unit_zero (S := S1x128) zero_offsets1, View.ld_unit_zero (S := S128x128) zero_offsets1]
  funext j
  show k1_pay1 (F := Ideal) (iblk1 V c 0 t) (iblk1 V c 1 t) (iblk1 V c 2 t) (iblk1 V c 3 t) j
    = G1 V c (((cfg1.win 4).blk t).view.emb j)
  obtain ⟨p, q, rfl⟩ : ∃ (p : Fin 400) (q : Fin 128), j = ix2 p q := ⟨j 0, j 1, eq_ix2 j⟩
  refine (pay1_apply (iblk1 V c 0 t) (iblk1 V c 1 t) (iblk1 V c 2 t) (iblk1 V c 3 t) p q).trans ?_
  rw [emb1_4 t p q]
  unfold G1
  rw [Cert.Gcn.arr2_ix2, blk1_1 V c t, blk1_2 V c t, blk1_3 V c t]
  exact Cert.Gcn.layer_congr_row _ _ _ _ _ p (row1 t p) (fun j => blk1_0 V c t p j) q

/-- An index of the array is in point `t`'s block iff each coordinate is in the block's range on its axis. -/
theorem mem_blk1 (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole main_v3).slice (win1_4.rect t)).set ↔ _
  rw [View.set_slice_whole, Rect.mem_set_unit]
  exact Iff.rfl

/-- The 25 blocks of 400 rows tile the 10000 rows: row `r` is in the block of point `r / 400`. -/
theorem cover1 (i : S10000x128.Idx) : ∃ t : Fin cfg1.N, (cfg1.win 4).flush t = true ∧ i ∈ ((cfg1.win 4).blk t).view.set := by
  have hi0 : (i 0).val < 10000 := (i 0).isLt
  have hi1 : (i 1).val < 128 := (i 1).isLt
  let t : Fin cfg1.N := ⟨(i 0).val / 400, by rw [show cfg1.N = 25 from N_1]; omega⟩
  obtain ⟨-, -, -, -, -, -, -, -, e0, e1⟩ := idx1 t
  refine ⟨t, flush1_4 t, ?_⟩
  rw [mem_blk1]
  intro a
  have ht : t.val = (i 0).val / 400 := rfl
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 128 ≤ (i 1).val ∧ (i 1).val < win1_4.index t (1 : Fin 2) * 128 + 128; omega

/-- THE ARRAY after the region: the hidden layer of the arrays it found, whatever those are named. -/
theorem final1 (c : Dev nD) (a : S10000x10000.Idx → EReal) (s : S10000x128.Idx → EReal) (b : S1x128.Idx → EReal)
    (w : S128x128.Idx → EReal) (ha : V c main_v0 = a) (hs : V c main_v1 = s) (hb : V c main_v2 = b) (hw : V c main_arg4 = w) :
    (dat1 (F := Ideal) V c).arrAt 4 cfg1.N
      = Cert.Gcn.arr2 (Cert.Gcn.layer a s (fun k => b (ix2 (0 : Fin 1) k)) w) := by
  subst ha hs hb hw
  exact (dat1 (F := Ideal) V c).arrAt_eq_of_cover 4 (G1 V c) (fun t _ => flushed1 V c t) cover1

end Cert.KernelIdeal.Layers

end
-- ==== Proof.Region2.lean ====
import proofs.«178979_g56126632624284_cont_9to1_m_1356_2_alg».proof.Proof.Gen.KernelIdeal.Frame
import proofs.«178979_g56126632624284_cont_9to1_m_1356_2_alg».proof.Proof.GcnLayer

set_option maxRecDepth 16384

noncomputable section

open scoped BigOperators

namespace Cert.KernelIdeal.Layers

open Idealize.ShloMosaic Idealize.ShloMosaic.TcCoe Idealize.ShloMosaic.ValueIdx Idealize.SL.Sem
open Idealize.ShloMosaic.Pipeline (Dat Cfg Window)
open Cert.KernelIdeal Cert.KernelIdeal.Gen

/-
  A hidden layer's pallas_call. Its grid has 25 points; point `t` reads rows
  `400 t … 400 t + 399` of the adjacency matrix, the whole support matrix, the bias row and the next weights, and
  writes rows `400 t … 400 t + 399` of `relu (adj · s + b) · w`. Since an entry of that matrix depends on the
  adjacency matrix only through its own row, the block a point writes is the block of ONE matrix, and the 25
  blocks tile the 10000 rows: the array ends at that matrix.
-/

variable (V : (c : Dev nD) → (b : Ref sig .tc) → Buf (Elt Ideal) ((c : Thread nD τ).loc b))

theorem zero_offsets2 : (![0, 0] : Fin 2 → Nat) = fun _ => 0 := funext fun a => by fin_cases a <;> rfl

/-- The body's one stored value at an entry: the hidden layer of the loaded blocks. -/
theorem pay2_apply (x0 : Vec Ideal S400x10000 .bf16) (x1 : Vec Ideal S10000x128 .bf16) (x2 : Vec Ideal S1x128 .f32)
    (x3 : Vec Ideal S128x128 .f32) (p : Fin 400) (q : Fin 128) :
    k2_pay1 (F := Ideal) x0 x1 x2 x3 (ix2 p q) = Cert.Gcn.layer x0 x1 (fun k => x2 (ix2 (0 : Fin 1) k)) x3 p q := by
  unfold k2_pay1
  exact Cert.Gcn.layer_body_apply _ _ _ _ _ x0 x1 x2 x3 p q

/-- The printed index maps over the grid: the adjacency rows and the output rows move with the point, the other
    three windows stay at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p` of point `t`'s block is row `400 t + p` of the array. -/
def row2 (t : Fin cfg2.N) (p : Fin 400) : Fin 10000 := ⟨t.val * 400 + p.val, by
  have ht : t.val < 25 := t.isLt
  have hp := p.isLt
  omega⟩

/-- The adjacency window's block at point `t` is rows `400 t …` of its array. -/
theorem blk2_0 (c : Dev nD) (t : Fin cfg2.N) (p : Fin 400) (j : Fin 10000) :
    iblk2 V c 0 t (ix2 p j) = V c main_v0 (ix2 (row2 t p) j) := by
  obtain ⟨e0, e1, -⟩ := idx2 t
  show V c main_v0 (((cfg2.win 0).blk t).view.emb (ix2 p j)) = V c main_v0 (ix2 (row2 t p) j)
  refine congrArg (V c main_v0) (funext fun a => Fin.ext ?_)
  match a with
  | ⟨0, _⟩ => show win2_0.index t (0 : Fin 2) * 400 + 1 * p.val = t.val * 400 + p.val; omega
  | ⟨1, _⟩ => show win2_0.index t (1 : Fin 2) * 10000 + 1 * j.val = j.val; omega

/-- The support window's one block is its whole array. -/
theorem blk2_1 (c : Dev nD) (t : Fin cfg2.N) : (iblk2 V c 1 t : S10000x128.Idx → EReal) = V c main_v3 := by
  obtain ⟨-, -, e0, e1, -⟩ := idx2 t
  funext y
  show V c main_v3 (((cfg2.win 1).blk t).view.emb y) = V c main_v3 y
  refine congrArg (V c main_v3) (funext fun a => Fin.ext ?_)
  match a with
  | ⟨0, _⟩ => show win2_1.index t (0 : Fin 2) * 10000 + 1 * (y 0).val = (y 0).val; omega
  | ⟨1, _⟩ => show win2_1.index t (1 : Fin 2) * 128 + 1 * (y 1).val = (y 1).val; omega

/-- The bias window's one block is its whole array. -/
theorem blk2_2 (c : Dev nD) (t : Fin cfg2.N) : (iblk2 V c 2 t : S1x128.Idx → EReal) = V c main_v4 := by
  obtain ⟨-, -, -, -, e0, e1, -⟩ := idx2 t
  funext y
  show V c main_v4 (((cfg2.win 2).blk t).view.emb y) = V c main_v4 y
  refine congrArg (V c main_v4) (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The weights window's one block is its whole array. -/
theorem blk2_3 (c : Dev nD) (t : Fin cfg2.N) : (iblk2 V c 3 t : S128x128.Idx → EReal) = V c main_arg6 := by
  obtain ⟨-, -, -, -, -, -, e0, e1, -⟩ := idx2 t
  funext y
  show V c main_arg6 (((cfg2.win 3).blk t).view.emb y) = V c main_arg6 y
  refine congrArg (V c main_arg6) (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Entry `(p, q)` of the output window's block at point `t` is entry `(400 t + p, q)` of its array. -/
theorem emb2_4 (t : Fin cfg2.N) (p : Fin 400) (q : Fin 128) :
    ((cfg2.win 4).blk t).view.emb (ix2 p q) = (ix2 (row2 t p) q : S10000x128.Idx) := by
  obtain ⟨-, -, -, -, -, -, -, -, e0, e1⟩ := idx2 t
  refine funext fun a => Fin.ext ?_
  match a with
  | ⟨0, _⟩ => show win2_4.index t (0 : Fin 2) * 400 + 1 * p.val = t.val * 400 + p.val; omega
  | ⟨1, _⟩ => show win2_4.index t (1 : Fin 2) * 128 + 1 * q.val = q.val; omega

/-- What the array ends holding: the hidden layer of the arrays the region finds. -/
def G2 (c : Dev nD) : S10000x128.Idx → EReal :=
  Cert.Gcn.arr2 (Cert.Gcn.layer (V c main_v0) (V c main_v3) (fun k => V c main_v4 (ix2 (0 : Fin 1) k)) (V c main_arg6))

/-- What point `t` writes back is block `t` of that one matrix. -/
theorem flushed2 (c : Dev nD) (t : Fin cfg2.N) :
    (dat2 (F := Ideal) V c).flushed 4 t = ((cfg2.win 4).blk t).view.read (Elt Ideal) (G2 V c) := by
  show (cfg2.win 4).cut (grid2.coords t) ((dat2 V c).after 4 t) = _
  rw [after2_4]
  unfold out2_4
  rw [View.canon_unit_zero zero_offsets2]
  simp only [View.ld_unit_zero (S := S400x10000) zero_offsets2, View.ld_unit_zero (S := S10000x128) zero_offsets2,
    View.ld_unit_zero (S := S1x128) zero_offsets2, View.ld_unit_zero (S := S128x128) zero_offsets2]
  funext j
  show k2_pay1 (F := Ideal) (iblk2 V c 0 t) (iblk2 V c 1 t) (iblk2 V c 2 t) (iblk2 V c 3 t) j
    = G2 V c (((cfg2.win 4).blk t).view.emb j)
  obtain ⟨p, q, rfl⟩ : ∃ (p : Fin 400) (q : Fin 128), j = ix2 p q := ⟨j 0, j 1, eq_ix2 j⟩
  refine (pay2_apply (iblk2 V c 0 t) (iblk2 V c 1 t) (iblk2 V c 2 t) (iblk2 V c 3 t) p q).trans ?_
  rw [emb2_4 t p q]
  unfold G2
  rw [Cert.Gcn.arr2_ix2, blk2_1 V c t, blk2_2 V c t, blk2_3 V c t]
  exact Cert.Gcn.layer_congr_row _ _ _ _ _ p (row2 t p) (fun j => blk2_0 V c t p j) q

/-- An index of the array is in point `t`'s block iff each coordinate is in the block's range on its axis. -/
theorem mem_blk2 (t : Fin cfg2.N) (i : S10000x128.Idx) :
    i ∈ ((cfg2.win 4).blk t).view.set ↔ ∀ a : Fin 2, win2_4.index t a * S400x128.size a ≤ (i a).val ∧ (i a).val < win2_4.index t a * S400x128.size a + S400x128.size a := by
  show i ∈ ((View.whole main_v5).slice (win2_4.rect t)).set ↔ _
  rw [View.set_slice_whole, Rect.mem_set_unit]
  exact Iff.rfl

/-- The 25 blocks of 400 rows tile the 10000 rows: row `r` is in the block of point `r / 400`. -/
theorem cover2 (i : S10000x128.Idx) : ∃ t : Fin cfg2.N, (cfg2.win 4).flush t = true ∧ i ∈ ((cfg2.win 4).blk t).view.set := by
  have hi0 : (i 0).val < 10000 := (i 0).isLt
  have hi1 : (i 1).val < 128 := (i 1).isLt
  let t : Fin cfg2.N := ⟨(i 0).val / 400, by rw [show cfg2.N = 25 from N_2]; omega⟩
  obtain ⟨-, -, -, -, -, -, -, -, e0, e1⟩ := idx2 t
  refine ⟨t, flush2_4 t, ?_⟩
  rw [mem_blk2]
  intro a
  have ht : t.val = (i 0).val / 400 := rfl
  match a with
  | ⟨0, _⟩ => show win2_4.index t (0 : Fin 2) * 400 ≤ (i 0).val ∧ (i 0).val < win2_4.index t (0 : Fin 2) * 400 + 400; omega
  | ⟨1, _⟩ => show win2_4.index t (1 : Fin 2) * 128 ≤ (i 1).val ∧ (i 1).val < win2_4.index t (1 : Fin 2) * 128 + 128; omega

/-- THE ARRAY after the region: the hidden layer of the arrays it found, whatever those are named. -/
theorem final2 (c : Dev nD) (a : S10000x10000.Idx → EReal) (s : S10000x128.Idx → EReal) (b : S1x128.Idx → EReal)
    (w : S128x128.Idx → EReal) (ha : V c main_v0 = a) (hs : V c main_v3 = s) (hb : V c main_v4 = b) (hw : V c main_arg6 = w) :
    (dat2 (F := Ideal) V c).arrAt 4 cfg2.N
      = Cert.Gcn.arr2 (Cert.Gcn.layer a s (fun k => b (ix2 (0 : Fin 1) k)) w) := by
  subst ha hs hb hw
  exact (dat2 (F := Ideal) V c).arrAt_eq_of_cover 4 (G2 V c) (fun t _ => flushed2 V c t) cover2

end Cert.KernelIdeal.Layers

end
-- ==== Proof.Region3.lean ====
import proofs.«178979_g56126632624284_cont_9to1_m_1356_2_alg».proof.Proof.Gen.KernelIdeal.Frame
import proofs.«178979_g56126632624284_cont_9to1_m_1356_2_alg».proof.Proof.GcnLayer

set_option maxRecDepth 16384

noncomputable section

open scoped BigOperators

namespace Cert.KernelIdeal.Layers

open Idealize.ShloMosaic Idealize.ShloMosaic.TcCoe Idealize.ShloMosaic.ValueIdx Idealize.SL.Sem
open Idealize.ShloMosaic.Pipeline (Dat Cfg Window)
open Cert.KernelIdeal Cert.KernelIdeal.Gen

/-
  A hidden layer's pallas_call. Its grid has 25 points; point `t` reads rows
  `400 t … 400 t + 399` of the adjacency matrix, the whole support matrix, the bias row and the next weights, and
  writes rows `400 t … 400 t + 399` of `relu (adj · s + b) · w`. Since an entry of that matrix depends on the
  adjacency matrix only through its own row, the block a point writes is the block of ONE matrix, and the 25
  blocks tile the 10000 rows: the array ends at that matrix.
-/

variable (V : (c : Dev nD) → (b : Ref sig .tc) → Buf (Elt Ideal) ((c : Thread nD τ).loc b))

theorem zero_offsets3 : (![0, 0] : Fin 2 → Nat) = fun _ => 0 := funext fun a => by fin_cases a <;> rfl

/-- The body's one stored value at an entry: the hidden layer of the loaded blocks. -/
theorem pay3_apply (x0 : Vec Ideal S400x10000 .bf16) (x1 : Vec Ideal S10000x128 .bf16) (x2 : Vec Ideal S1x128 .f32)
    (x3 : Vec Ideal S128x128 .f32) (p : Fin 400) (q : Fin 128) :
    k3_pay1 (F := Ideal) x0 x1 x2 x3 (ix2 p q) = Cert.Gcn.layer x0 x1 (fun k => x2 (ix2 (0 : Fin 1) k)) x3 p q := by
  unfold k3_pay1
  exact Cert.Gcn.layer_body_apply _ _ _ _ _ x0 x1 x2 x3 p q

/-- The printed index maps over the grid: the adjacency rows and the output rows move with the point, the other
    three windows stay at block (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row `p` of point `t`'s block is row `400 t + p` of the array. -/
def row3 (t : Fin cfg3.N) (p : Fin 400) : Fin 10000 := ⟨t.val * 400 + p.val, by
  have ht : t.val < 25 := t.isLt
  have hp := p.isLt
  omega⟩

/-- The adjacency window's block at point `t` is rows `400 t …` of its array. -/
theorem blk3_0 (c : Dev nD) (t : Fin cfg3.N) (p : Fin 400) (j : Fin 10000) :
    iblk3 V c 0 t (ix2 p j) = V c main_v0 (ix2 (row3 t p) j) := by
  obtain ⟨e0, e1, -⟩ := idx3 t
  show V c main_v0 (((cfg3.win 0).blk t).view.emb (ix2 p j)) = V c main_v0 (ix2 (row3 t p) j)
  refine congrArg (V c main_v0) (funext fun a => Fin.ext ?_)
  match a with
  | ⟨0, _⟩ => show win3_0.index t (0 : Fin 2) * 400 + 1 * p.val = t.val * 400 + p.val; omega
  | ⟨1, _⟩ => show win3_0.index t (1 : Fin 2) * 10000 + 1 * j.val = j.val; omega

/-- The support window's one block is its whole array. -/
theorem blk3_1 (c : Dev nD) (t : Fin cfg3.N) : (iblk3 V c 1 t : S10000x128.Idx → EReal) = V c main_v5 := by
  obtain ⟨-, -, e0, e1, -⟩ := idx3 t
  funext y
  show V c main_v5 (((cfg3.win 1).blk t).view.emb y) = V c main_v5 y
  refine congrArg (V c main_v5) (funext fun a => Fin.ext ?_)
  match a with
  | ⟨0, _⟩ => show win3_1.index t (0 : Fin 2) * 10000 + 1 * (y 0).val = (y 0).val; omega
  | ⟨1, _⟩ => show win3_1.index t (1 : Fin 2) * 128 + 1 * (y 1).val = (y 1).val; omega

/-- The bias window's one block is its whole array. -/
theorem blk3_2 (c : Dev nD) (t : Fin cfg3.N) : (iblk3 V c 2 t : S1x128.Idx → EReal) = V c main_v6 := by
  obtain ⟨-, -, -, -, e0, e1, -⟩ := idx3 t
  funext y
  show V c main_v6 (((cfg3.win 2).blk t).view.emb y) = V c main_v6 y
  refine congrArg (V c main_v6) (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- The weights window's one block is its whole array. -/
theorem blk3_3 (c : Dev nD) (t : Fin cfg3.N) : (iblk3 V c 3 t : S128x128.Idx → EReal) = V c main_arg8 := by
  obtain ⟨-, -, -, -, -, -, e0, e1, -⟩ := idx3 t
  funext y
  show V c main_arg8 (((cfg3.win 3).blk t).view.emb y) = V c main_arg8 y
  refine congrArg (V c main_arg8) (funext fun a => Fin.ext ?_)
  match a with
  | ⟨0, _⟩ => show win3_3.index t (0 : Fin 2) * 128 + 1 * (y 0).val = (y 0).val; omega
  | ⟨1, _⟩ => show win3_3.index t (1 : Fin 2) * 128 + 1 * (y 1).val = (y 1).val; omega

/-- Entry `(p, q)` of the output window's block at point `t` is entry `(400 t + p, q)` of its array. -/
theorem emb3_4 (t : Fin cfg3.N) (p : Fin 400) (q : Fin 128) :
    ((cfg3.win 4).blk t).view.emb (ix2 p q) = (ix2 (row3 t p) q : S10000x128.Idx) := by
  obtain ⟨-, -, -, -, -, -, -, -, e0, e1⟩ := idx3 t
  refine funext fun a => Fin.ext ?_
  match a with
  | ⟨0, _⟩ => show win3_4.index t (0 : Fin 2) * 400 + 1 * p.val = t.val * 400 + p.val; omega
  | ⟨1, _⟩ => show win3_4.index t (1 : Fin 2) * 128 + 1 * q.val = q.val; omega

/-- What the array ends holding: the hidden layer of the arrays the region finds. -/
def G3 (c : Dev nD) : S10000x128.Idx → EReal :=
  Cert.Gcn.arr2 (Cert.Gcn.layer (V c main_v0) (V c main_v5) (fun k => V c main_v6 (ix2 (0 : Fin 1) k)) (V c main_arg8))

/-- What point `t` writes back is block `t` of that one matrix. -/
theorem flushed3 (c : Dev nD) (t : Fin cfg3.N) :
    (dat3 (F := Ideal) V c).flushed 4 t = ((cfg3.win 4).blk t).view.read (Elt Ideal) (G3 V c) := by
  show (cfg3.win 4).cut (grid3.coords t) ((dat3 V c).after 4 t) = _
  rw [after3_4]
  unfold out3_4
  rw [View.canon_unit_zero zero_offsets3]
  simp only [View.ld_unit_zero (S := S400x10000) zero_offsets3, View.ld_unit_zero (S := S10000x128) zero_offsets3,
    View.ld_unit_zero (S := S1x128) zero_offsets3, View.ld_unit_zero (S := S128x128) zero_offsets3]
  funext j
  show k3_pay1 (F := Ideal) (iblk3 V c 0 t) (iblk3 V c 1 t) (iblk3 V c 2 t) (iblk3 V c 3 t) j
    = G3 V c (((cfg3.win 4).blk t).view.emb j)
  obtain ⟨p, q, rfl⟩ : ∃ (p : Fin 400) (q : Fin 128), j = ix2 p q := ⟨j 0, j 1, eq_ix2 j⟩
  refine (pay3_apply (iblk3 V c 0 t) (iblk3 V c 1 t) (iblk3 V c 2 t) (iblk3 V c 3 t) p q).trans ?_
  rw [emb3_4 t p q]
  unfold G3
  rw [Cert.Gcn.arr2_ix2, blk3_1 V c t, blk3_2 V c t, blk3_3 V c t]
  exact Cert.Gcn.layer_congr_row _ _ _ _ _ p (row3 t p) (fun j => blk3_0 V c t p j) q

/-- An index of the array is in point `t`'s block iff each coordinate is in the block's range on its axis. -/
theorem mem_blk3 (t : Fin cfg3.N) (i : S10000x128.Idx) :
    i ∈ ((cfg3.win 4).blk t).view.set ↔ ∀ a : Fin 2, win3_4.index t a * S400x128.size a ≤ (i a).val ∧ (i a).val < win3_4.index t a * S400x128.size a + S400x128.size a := by
  show i ∈ ((View.whole main_v7).slice (win3_4.rect t)).set ↔ _
  rw [View.set_slice_whole, Rect.mem_set_unit]
  exact Iff.rfl

/-- The 25 blocks of 400 rows tile the 10000 rows: row `r` is in the block of point `r / 400`. -/
theorem cover3 (i : S10000x128.Idx) : ∃ t : Fin cfg3.N, (cfg3.win 4).flush t = true ∧ i ∈ ((cfg3.win 4).blk t).view.set := by
  have hi0 : (i 0).val < 10000 := (i 0).isLt
  have hi1 : (i 1).val < 128 := (i 1).isLt
  let t : Fin cfg3.N := ⟨(i 0).val / 400, by rw [show cfg3.N = 25 from N_3]; omega⟩
  obtain ⟨-, -, -, -, -, -, -, -, e0, e1⟩ := idx3 t
  refine ⟨t, flush3_4 t, ?_⟩
  rw [mem_blk3]
  intro a
  have ht : t.val = (i 0).val / 400 := rfl
  match a with
  | ⟨0, _⟩ => show win3_4.index t (0 : Fin 2) * 400 ≤ (i 0).val ∧ (i 0).val < win3_4.index t (0 : Fin 2) * 400 + 400; omega
  | ⟨1, _⟩ => show win3_4.index t (1 : Fin 2) * 128 ≤ (i 1).val ∧ (i 1).val < win3_4.index t (1 : Fin 2) * 128 + 128; omega

/-- THE ARRAY after the region: the hidden layer of the arrays it found, whatever those are named. -/
theorem final3 (c : Dev nD) (a : S10000x10000.Idx → EReal) (s : S10000x128.Idx → EReal) (b : S1x128.Idx → EReal)
    (w : S128x128.Idx → EReal) (ha : V c main_v0 = a) (hs : V c main_v5 = s) (hb : V c main_v6 = b) (hw : V c main_arg8 = w) :
    (dat3 (F := Ideal) V c).arrAt 4 cfg3.N
      = Cert.Gcn.arr2 (Cert.Gcn.layer a s (fun k => b (ix2 (0 : Fin 1) k)) w) := by
  subst ha hs hb hw
  exact (dat3 (F := Ideal) V c).arrAt_eq_of_cover 4 (G3 V c) (fun t _ => flushed3 V c t) cover3

end Cert.KernelIdeal.Layers

end
-- ==== Proof.Region4.lean ====
import proofs.«178979_g56126632624284_cont_9to1_m_1356_2_alg».proof.Proof.Gen.KernelIdeal.Frame
import proofs.«178979_g56126632624284_cont_9to1_m_1356_2_alg».proof.Proof.GcnLayer

set_option maxRecDepth 16384

noncomputable section

open scoped BigOperators

namespace Cert.KernelIdeal.Layers

open Idealize.ShloMosaic Idealize.ShloMosaic.TcCoe Idealize.ShloMosaic.ValueIdx Idealize.SL.Sem
open Idealize.ShloMosaic.Pipeline (Dat Cfg Window)
open Cert.KernelIdeal Cert.KernelIdeal.Gen

/-
  A hidden layer's pallas_call. Its grid has 25 points; point `t` reads rows
  `400 t … 400 t + 399` of the adjacency matrix, the whole support matrix, the bias row and the next weights, and
  writes rows `400 t … 400 t + 399` of `relu (adj · s + b) · w`. Since an entry of that matrix depends on the
  adjacency matrix only through its own row, the block a point writes is the block of ONE matrix, and the 25
  blocks tile the 10000 rows: the array ends at that matrix.
-/

variable (V : (c : Dev nD) → (b : Ref sig .tc) → Buf (Elt Ideal) ((c : Thread nD τ).loc b))

theorem zero_offsets4 : (![0, 0] : Fin 2 → Nat) = fun _ => 0 := funext fun a => by fin_cases a <;> rfl

/-- The body's one stored value at an entry: the hidden layer of the loaded blocks. -/
theorem pay4_apply (x0 : Vec Ideal S400x10000 .bf16) (x1 : Vec Ideal S10000x128 .bf16) (x2 : Vec Ideal S1x128 .f32)
    (x3 : Vec Ideal S128x128 .f32) (p : Fin 400) (q : Fin 128) :
    k4_pay1 (F := Ideal) x0 x1 x2 x3 (ix2 p q) = Cert.Gcn.layer x0 x1 (fun k => x2 (ix2 (0 : Fin 1) k)) x3 p q := by
  unfold k4_pay1
  exact Cert.Gcn.layer_body_apply _ _ _ _ _ x0 x1 x2 x3 p q

/-- The printed index maps over the grid: the adjacency rows and the output rows move with the point, the other
    three windows stay at block (0, 0). -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Row `p` of point `t`'s block is row `400 t + p` of the array. -/
def row4 (t : Fin cfg4.N) (p : Fin 400) : Fin 10000 := ⟨t.val * 400 + p.val, by
  have ht : t.val < 25 := t.isLt
  have hp := p.isLt
  omega⟩

/-- The adjacency window's block at point `t` is rows `400 t …` of its array. -/
theorem blk4_0 (c : Dev nD) (t : Fin cfg4.N) (p : Fin 400) (j : Fin 10000) :
    iblk4 V c 0 t (ix2 p j) = V c main_v0 (ix2 (row4 t p) j) := by
  obtain ⟨e0, e1, -⟩ := idx4 t
  show V c main_v0 (((cfg4.win 0).blk t).view.emb (ix2 p j)) = V c main_v0 (ix2 (row4 t p) j)
  refine congrArg (V c main_v0) (funext fun a => Fin.ext ?_)
  match a with
  | ⟨0, _⟩ => show win4_0.index t (0 : Fin 2) * 400 + 1 * p.val = t.val * 400 + p.val; omega
  | ⟨1, _⟩ => show win4_0.index t (1 : Fin 2) * 10000 + 1 * j.val = j.val; omega

/-- The support window's one block is its whole array. -/
theorem blk4_1 (c : Dev nD) (t : Fin cfg4.N) : (iblk4 V c 1 t : S10000x128.Idx → EReal) = V c main_v7 := by
  obtain ⟨-, -, e0, e1, -⟩ := idx4 t
  funext y
  show V c main_v7 (((cfg4.win 1).blk t).view.emb y) = V c main_v7 y
  refine congrArg (V c main_v7) (funext fun a => Fin.ext ?_)
  match a with
  | ⟨0, _⟩ => show win4_1.index t (0 : Fin 2) * 10000 + 1 * (y 0).val = (y 0).val; omega
  | ⟨1, _⟩ => show win4_1.index t (1 : Fin 2) * 128 + 1 * (y 1).val = (y 1).val; omega

/-- The bias window's one block is its whole array. -/
theorem blk4_2 (c : Dev nD) (t : Fin cfg4.N) : (iblk4 V c 2 t : S1x128.Idx → EReal) = V c main_v8 := by
  obtain ⟨-, -, -, -, e0, e1, -⟩ := idx4 t
  funext y
  show V c main_v8 (((cfg4.win 2).blk t).view.emb y) = V c main_v8 y
  refine congrArg (V c main_v8) (funext fun a => Fin.ext ?_)
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- The weights window's one block is its whole array. -/
theorem blk4_3 (c : Dev nD) (t : Fin cfg4.N) : (iblk4 V c 3 t : S128x128.Idx → EReal) = V c main_arg10 := by
  obtain ⟨-, -, -, -, -, -, e0, e1, -⟩ := idx4 t
  funext y
  show V c main_arg10 (((cfg4.win 3).blk t).view.emb y) = V c main_arg10 y
  refine congrArg (V c main_arg10) (funext fun a => Fin.ext ?_)
  match a with
  | ⟨0, _⟩ => show win4_3.index t (0 : Fin 2) * 128 + 1 * (y 0).val = (y 0).val; omega
  | ⟨1, _⟩ => show win4_3.index t (1 : Fin 2) * 128 + 1 * (y 1).val = (y 1).val; omega

/-- Entry `(p, q)` of the output window's block at point `t` is entry `(400 t + p, q)` of its array. -/
theorem emb4_4 (t : Fin cfg4.N) (p : Fin 400) (q : Fin 128) :
    ((cfg4.win 4).blk t).view.emb (ix2 p q) = (ix2 (row4 t p) q : S10000x128.Idx) := by
  obtain ⟨-, -, -, -, -, -, -, -, e0, e1⟩ := idx4 t
  refine funext fun a => Fin.ext ?_
  match a with
  | ⟨0, _⟩ => show win4_4.index t (0 : Fin 2) * 400 + 1 * p.val = t.val * 400 + p.val; omega
  | ⟨1, _⟩ => show win4_4.index t (1 : Fin 2) * 128 + 1 * q.val = q.val; omega

/-- What the array ends holding: the hidden layer of the arrays the region finds. -/
def G4 (c : Dev nD) : S10000x128.Idx → EReal :=
  Cert.Gcn.arr2 (Cert.Gcn.layer (V c main_v0) (V c main_v7) (fun k => V c main_v8 (ix2 (0 : Fin 1) k)) (V c main_arg10))

/-- What point `t` writes back is block `t` of that one matrix. -/
theorem flushed4 (c : Dev nD) (t : Fin cfg4.N) :
    (dat4 (F := Ideal) V c).flushed 4 t = ((cfg4.win 4).blk t).view.read (Elt Ideal) (G4 V c) := by
  show (cfg4.win 4).cut (grid4.coords t) ((dat4 V c).after 4 t) = _
  rw [after4_4]
  unfold out4_4
  rw [View.canon_unit_zero zero_offsets4]
  simp only [View.ld_unit_zero (S := S400x10000) zero_offsets4, View.ld_unit_zero (S := S10000x128) zero_offsets4,
    View.ld_unit_zero (S := S1x128) zero_offsets4, View.ld_unit_zero (S := S128x128) zero_offsets4]
  funext j
  show k4_pay1 (F := Ideal) (iblk4 V c 0 t) (iblk4 V c 1 t) (iblk4 V c 2 t) (iblk4 V c 3 t) j
    = G4 V c (((cfg4.win 4).blk t).view.emb j)
  obtain ⟨p, q, rfl⟩ : ∃ (p : Fin 400) (q : Fin 128), j = ix2 p q := ⟨j 0, j 1, eq_ix2 j⟩
  refine (pay4_apply (iblk4 V c 0 t) (iblk4 V c 1 t) (iblk4 V c 2 t) (iblk4 V c 3 t) p q).trans ?_
  rw [emb4_4 t p q]
  unfold G4
  rw [Cert.Gcn.arr2_ix2, blk4_1 V c t, blk4_2 V c t, blk4_3 V c t]
  exact Cert.Gcn.layer_congr_row _ _ _ _ _ p (row4 t p) (fun j => blk4_0 V c t p j) q

/-- An index of the array is in point `t`'s block iff each coordinate is in the block's range on its axis. -/
theorem mem_blk4 (t : Fin cfg4.N) (i : S10000x128.Idx) :
    i ∈ ((cfg4.win 4).blk t).view.set ↔ ∀ a : Fin 2, win4_4.index t a * S400x128.size a ≤ (i a).val ∧ (i a).val < win4_4.index t a * S400x128.size a + S400x128.size a := by
  show i ∈ ((View.whole main_v9).slice (win4_4.rect t)).set ↔ _
  rw [View.set_slice_whole, Rect.mem_set_unit]
  exact Iff.rfl

/-- The 25 blocks of 400 rows tile the 10000 rows: row `r` is in the block of point `r / 400`. -/
theorem cover4 (i : S10000x128.Idx) : ∃ t : Fin cfg4.N, (cfg4.win 4).flush t = true ∧ i ∈ ((cfg4.win 4).blk t).view.set := by
  have hi0 : (i 0).val < 10000 := (i 0).isLt
  have hi1 : (i 1).val < 128 := (i 1).isLt
  let t : Fin cfg4.N := ⟨(i 0).val / 400, by rw [show cfg4.N = 25 from N_4]; omega⟩
  obtain ⟨-, -, -, -, -, -, -, -, e0, e1⟩ := idx4 t
  refine ⟨t, flush4_4 t, ?_⟩
  rw [mem_blk4]
  intro a
  have ht : t.val = (i 0).val / 400 := rfl
  match a with
  | ⟨0, _⟩ => show win4_4.index t (0 : Fin 2) * 400 ≤ (i 0).val ∧ (i 0).val < win4_4.index t (0 : Fin 2) * 400 + 400; omega
  | ⟨1, _⟩ => show win4_4.index t (1 : Fin 2) * 128 ≤ (i 1).val ∧ (i 1).val < win4_4.index t (1 : Fin 2) * 128 + 128; omega

/-- THE ARRAY after the region: the hidden layer of the arrays it found, whatever those are named. -/
theorem final4 (c : Dev nD) (a : S10000x10000.Idx → EReal) (s : S10000x128.Idx → EReal) (b : S1x128.Idx → EReal)
    (w : S128x128.Idx → EReal) (ha : V c main_v0 = a) (hs : V c main_v7 = s) (hb : V c main_v8 = b) (hw : V c main_arg10 = w) :
    (dat4 (F := Ideal) V c).arrAt 4 cfg4.N
      = Cert.Gcn.arr2 (Cert.Gcn.layer a s (fun k => b (ix2 (0 : Fin 1) k)) w) := by
  subst ha hs hb hw
  exact (dat4 (F := Ideal) V c).arrAt_eq_of_cover 4 (G4 V c) (fun t _ => flushed4 V c t) cover4

end Cert.KernelIdeal.Layers

end
-- ==== Proof.Region5.lean ====
import proofs.«178979_g56126632624284_cont_9to1_m_1356_2_alg».proof.Proof.Gen.KernelIdeal.Frame
import proofs.«178979_g56126632624284_cont_9to1_m_1356_2_alg».proof.Proof.GcnLayer

set_option maxRecDepth 16384

noncomputable section

open scoped BigOperators

namespace Cert.KernelIdeal.Layers

open Idealize.ShloMosaic Idealize.ShloMosaic.TcCoe Idealize.ShloMosaic.ValueIdx Idealize.SL.Sem
open Idealize.ShloMosaic.Pipeline (Dat Cfg Window)
open Cert.KernelIdeal Cert.KernelIdeal.Gen

/-
  A hidden layer's pallas_call. Its grid has 25 points; point `t` reads rows
  `400 t … 400 t + 399` of the adjacency matrix, the whole support matrix, the bias row and the next weights, and
  writes rows `400 t … 400 t + 399` of `relu (adj · s + b) · w`. Since an entry of that matrix depends on the
  adjacency matrix only through its own row, the block a point writes is the block of ONE matrix, and the 25
  blocks tile the 10000 rows: the array ends at that matrix.
-/

variable (V : (c : Dev nD) → (b : Ref sig .tc) → Buf (Elt Ideal) ((c : Thread nD τ).loc b))

theorem zero_offsets5 : (![0, 0] : Fin 2 → Nat) = fun _ => 0 := funext fun a => by fin_cases a <;> rfl

/-- The body's one stored value at an entry: the hidden layer of the loaded blocks. -/
theorem pay5_apply (x0 : Vec Ideal S400x10000 .bf16) (x1 : Vec Ideal S10000x128 .bf16) (x2 : Vec Ideal S1x128 .f32)
    (x3 : Vec Ideal S128x64 .f32) (p : Fin 400) (q : Fin 64) :
    k5_pay1 (F := Ideal) x0 x1 x2 x3 (ix2 p q) = Cert.Gcn.layer x0 x1 (fun k => x2 (ix2 (0 : Fin 1) k)) x3 p q := by
  unfold k5_pay1
  exact Cert.Gcn.layer_body_apply _ _ _ _ _ x0 x1 x2 x3 p q

/-- The printed index maps over the grid: the adjacency rows and the output rows move with the point, the other
    three windows stay at block (0, 0). -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Row `p` of point `t`'s block is row `400 t + p` of the array. -/
def row5 (t : Fin cfg5.N) (p : Fin 400) : Fin 10000 := ⟨t.val * 400 + p.val, by
  have ht : t.val < 25 := t.isLt
  have hp := p.isLt
  omega⟩

/-- The adjacency window's block at point `t` is rows `400 t …` of its array. -/
theorem blk5_0 (c : Dev nD) (t : Fin cfg5.N) (p : Fin 400) (j : Fin 10000) :
    iblk5 V c 0 t (ix2 p j) = V c main_v0 (ix2 (row5 t p) j) := by
  obtain ⟨e0, e1, -⟩ := idx5 t
  show V c main_v0 (((cfg5.win 0).blk t).view.emb (ix2 p j)) = V c main_v0 (ix2 (row5 t p) j)
  refine congrArg (V c main_v0) (funext fun a => Fin.ext ?_)
  match a with
  | ⟨0, _⟩ => show win5_0.index t (0 : Fin 2) * 400 + 1 * p.val = t.val * 400 + p.val; omega
  | ⟨1, _⟩ => show win5_0.index t (1 : Fin 2) * 10000 + 1 * j.val = j.val; omega

/-- The support window's one block is its whole array. -/
theorem blk5_1 (c : Dev nD) (t : Fin cfg5.N) : (iblk5 V c 1 t : S10000x128.Idx → EReal) = V c main_v9 := by
  obtain ⟨-, -, e0, e1, -⟩ := idx5 t
  funext y
  show V c main_v9 (((cfg5.win 1).blk t).view.emb y) = V c main_v9 y
  refine congrArg (V c main_v9) (funext fun a => Fin.ext ?_)
  match a with
  | ⟨0, _⟩ => show win5_1.index t (0 : Fin 2) * 10000 + 1 * (y 0).val = (y 0).val; omega
  | ⟨1, _⟩ => show win5_1.index t (1 : Fin 2) * 128 + 1 * (y 1).val = (y 1).val; omega

/-- The bias window's one block is its whole array. -/
theorem blk5_2 (c : Dev nD) (t : Fin cfg5.N) : (iblk5 V c 2 t : S1x128.Idx → EReal) = V c main_v10 := by
  obtain ⟨-, -, -, -, e0, e1, -⟩ := idx5 t
  funext y
  show V c main_v10 (((cfg5.win 2).blk t).view.emb y) = V c main_v10 y
  refine congrArg (V c main_v10) (funext fun a => Fin.ext ?_)
  match a with
  | ⟨0, _⟩ => show win5_2.index t (0 : Fin 2) * 1 + 1 * (y 0).val = (y 0).val; omega
  | ⟨1, _⟩ => show win5_2.index t (1 : Fin 2) * 128 + 1 * (y 1).val = (y 1).val; omega

/-- The weights window's one block is its whole array. -/
theorem blk5_3 (c : Dev nD) (t : Fin cfg5.N) : (iblk5 V c 3 t : S128x64.Idx → EReal) = V c main_arg12 := by
  obtain ⟨-, -, -, -, -, -, e0, e1, -⟩ := idx5 t
  funext y
  show V c main_arg12 (((cfg5.win 3).blk t).view.emb y) = V c main_arg12 y
  refine congrArg (V c main_arg12) (funext fun a => Fin.ext ?_)
  match a with
  | ⟨0, _⟩ => show win5_3.index t (0 : Fin 2) * 128 + 1 * (y 0).val = (y 0).val; omega
  | ⟨1, _⟩ => show win5_3.index t (1 : Fin 2) * 64 + 1 * (y 1).val = (y 1).val; omega

/-- Entry `(p, q)` of the output window's block at point `t` is entry `(400 t + p, q)` of its array. -/
theorem emb5_4 (t : Fin cfg5.N) (p : Fin 400) (q : Fin 64) :
    ((cfg5.win 4).blk t).view.emb (ix2 p q) = (ix2 (row5 t p) q : S10000x64.Idx) := by
  obtain ⟨-, -, -, -, -, -, -, -, e0, e1⟩ := idx5 t
  refine funext fun a => Fin.ext ?_
  match a with
  | ⟨0, _⟩ => show win5_4.index t (0 : Fin 2) * 400 + 1 * p.val = t.val * 400 + p.val; omega
  | ⟨1, _⟩ => show win5_4.index t (1 : Fin 2) * 64 + 1 * q.val = q.val; omega

/-- What the array ends holding: the hidden layer of the arrays the region finds. -/
def G5 (c : Dev nD) : S10000x64.Idx → EReal :=
  Cert.Gcn.arr2 (Cert.Gcn.layer (V c main_v0) (V c main_v9) (fun k => V c main_v10 (ix2 (0 : Fin 1) k)) (V c main_arg12))

/-- What point `t` writes back is block `t` of that one matrix. -/
theorem flushed5 (c : Dev nD) (t : Fin cfg5.N) :
    (dat5 (F := Ideal) V c).flushed 4 t = ((cfg5.win 4).blk t).view.read (Elt Ideal) (G5 V c) := by
  show (cfg5.win 4).cut (grid5.coords t) ((dat5 V c).after 4 t) = _
  rw [after5_4]
  unfold out5_4
  rw [View.canon_unit_zero zero_offsets5]
  simp only [View.ld_unit_zero (S := S400x10000) zero_offsets5, View.ld_unit_zero (S := S10000x128) zero_offsets5,
    View.ld_unit_zero (S := S1x128) zero_offsets5, View.ld_unit_zero (S := S128x64) zero_offsets5]
  funext j
  show k5_pay1 (F := Ideal) (iblk5 V c 0 t) (iblk5 V c 1 t) (iblk5 V c 2 t) (iblk5 V c 3 t) j
    = G5 V c (((cfg5.win 4).blk t).view.emb j)
  obtain ⟨p, q, rfl⟩ : ∃ (p : Fin 400) (q : Fin 64), j = ix2 p q := ⟨j 0, j 1, eq_ix2 j⟩
  refine (pay5_apply (iblk5 V c 0 t) (iblk5 V c 1 t) (iblk5 V c 2 t) (iblk5 V c 3 t) p q).trans ?_
  rw [emb5_4 t p q]
  unfold G5
  rw [Cert.Gcn.arr2_ix2, blk5_1 V c t, blk5_2 V c t, blk5_3 V c t]
  exact Cert.Gcn.layer_congr_row _ _ _ _ _ p (row5 t p) (fun j => blk5_0 V c t p j) q

/-- An index of the array is in point `t`'s block iff each coordinate is in the block's range on its axis. -/
theorem mem_blk5 (t : Fin cfg5.N) (i : S10000x64.Idx) :
    i ∈ ((cfg5.win 4).blk t).view.set ↔ ∀ a : Fin 2, win5_4.index t a * S400x64.size a ≤ (i a).val ∧ (i a).val < win5_4.index t a * S400x64.size a + S400x64.size a := by
  show i ∈ ((View.whole main_v11).slice (win5_4.rect t)).set ↔ _
  rw [View.set_slice_whole, Rect.mem_set_unit]
  exact Iff.rfl

/-- The 25 blocks of 400 rows tile the 10000 rows: row `r` is in the block of point `r / 400`. -/
theorem cover5 (i : S10000x64.Idx) : ∃ t : Fin cfg5.N, (cfg5.win 4).flush t = true ∧ i ∈ ((cfg5.win 4).blk t).view.set := by
  have hi0 : (i 0).val < 10000 := (i 0).isLt
  have hi1 : (i 1).val < 64 := (i 1).isLt
  let t : Fin cfg5.N := ⟨(i 0).val / 400, by rw [show cfg5.N = 25 from N_5]; omega⟩
  obtain ⟨-, -, -, -, -, -, -, -, e0, e1⟩ := idx5 t
  refine ⟨t, flush5_4 t, ?_⟩
  rw [mem_blk5]
  intro a
  have ht : t.val = (i 0).val / 400 := rfl
  match a with
  | ⟨0, _⟩ => show win5_4.index t (0 : Fin 2) * 400 ≤ (i 0).val ∧ (i 0).val < win5_4.index t (0 : Fin 2) * 400 + 400; omega
  | ⟨1, _⟩ => show win5_4.index t (1 : Fin 2) * 64 ≤ (i 1).val ∧ (i 1).val < win5_4.index t (1 : Fin 2) * 64 + 64; omega

/-- THE ARRAY after the region: the hidden layer of the arrays it found, whatever those are named. -/
theorem final5 (c : Dev nD) (a : S10000x10000.Idx → EReal) (s : S10000x128.Idx → EReal) (b : S1x128.Idx → EReal)
    (w : S128x64.Idx → EReal) (ha : V c main_v0 = a) (hs : V c main_v9 = s) (hb : V c main_v10 = b) (hw : V c main_arg12 = w) :
    (dat5 (F := Ideal) V c).arrAt 4 cfg5.N
      = Cert.Gcn.arr2 (Cert.Gcn.layer a s (fun k => b (ix2 (0 : Fin 1) k)) w) := by
  subst ha hs hb hw
  exact (dat5 (F := Ideal) V c).arrAt_eq_of_cover 4 (G5 V c) (fun t _ => flushed5 V c t) cover5

end Cert.KernelIdeal.Layers

end
-- ==== Proof.Region6.lean ====
import proofs.«178979_g56126632624284_cont_9to1_m_1356_2_alg».proof.Proof.Gen.KernelIdeal.Frame
import proofs.«178979_g56126632624284_cont_9to1_m_1356_2_alg».proof.Proof.GcnLayer

set_option maxRecDepth 16384

noncomputable section

open scoped BigOperators

namespace Cert.KernelIdeal.Layers

open Idealize.ShloMosaic Idealize.ShloMosaic.TcCoe Idealize.ShloMosaic.ValueIdx Idealize.SL.Sem
open Idealize.ShloMosaic.Pipeline (Dat Cfg Window)
open Cert.KernelIdeal Cert.KernelIdeal.Gen

/-
  The last pallas_call (the output layer). Its grid has 25 points; point `t` reads rows `400 t … 400 t + 399` of
  the adjacency matrix, the whole support matrix `[10000, 64]` and the bias row, and writes rows
  `400 t … 400 t + 399` of `adj · s + b` — no rectifier, no further weights. An entry depends on the adjacency
  matrix only through its own row, so the 25 blocks are the blocks of ONE matrix and tile its 10000 rows.
-/

variable (V : (c : Dev nD) → (b : Ref sig .tc) → Buf (Elt Ideal) ((c : Thread nD τ).loc b))

theorem zero_offsets6 : (![0, 0] : Fin 2 → Nat) = fun _ => 0 := funext fun a => by fin_cases a <;> rfl

/-- The body's one stored value at an entry: the output layer of the loaded blocks. -/
theorem pay6_apply (x0 : Vec Ideal S400x10000 .bf16) (x1 : Vec Ideal S10000x64 .bf16) (x2 : Vec Ideal S1x64 .f32)
    (p : Fin 400) (q : Fin 64) :
    k6_pay1 (F := Ideal) x0 x1 x2 (ix2 p q) = Cert.Gcn.output x0 x1 (fun k => x2 (ix2 (0 : Fin 1) k)) p q := by
  unfold k6_pay1
  exact Cert.Gcn.output_body_apply _ _ _ _ x0 x1 x2 p q

/-- The printed index maps over the grid: the adjacency rows and the output rows move with the point, the other
    two windows stay at block (0, 0). -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Row `p` of point `t`'s block is row `400 t + p` of the array. -/
def row6 (t : Fin cfg6.N) (p : Fin 400) : Fin 10000 := ⟨t.val * 400 + p.val, by
  have ht : t.val < 25 := t.isLt
  have hp := p.isLt
  omega⟩

/-- The adjacency window's block at point `t` is rows `400 t …` of its array. -/
theorem blk6_0 (c : Dev nD) (t : Fin cfg6.N) (p : Fin 400) (j : Fin 10000) :
    iblk6 V c 0 t (ix2 p j) = V c main_v0 (ix2 (row6 t p) j) := by
  obtain ⟨e0, e1, -⟩ := idx6 t
  show V c main_v0 (((cfg6.win 0).blk t).view.emb (ix2 p j)) = V c main_v0 (ix2 (row6 t p) j)
  refine congrArg (V c main_v0) (funext fun a => Fin.ext ?_)
  match a with
  | ⟨0, _⟩ => show win6_0.index t (0 : Fin 2) * 400 + 1 * p.val = t.val * 400 + p.val; omega
  | ⟨1, _⟩ => show win6_0.index t (1 : Fin 2) * 10000 + 1 * j.val = j.val; omega

/-- The support window's one block is its whole array. -/
theorem blk6_1 (c : Dev nD) (t : Fin cfg6.N) : (iblk6 V c 1 t : S10000x64.Idx → EReal) = V c main_v11 := by
  obtain ⟨-, -, e0, e1, -⟩ := idx6 t
  funext y
  show V c main_v11 (((cfg6.win 1).blk t).view.emb y) = V c main_v11 y
  refine congrArg (V c main_v11) (funext fun a => Fin.ext ?_)
  match a with
  | ⟨0, _⟩ => show win6_1.index t (0 : Fin 2) * 10000 + 1 * (y 0).val = (y 0).val; omega
  | ⟨1, _⟩ => show win6_1.index t (1 : Fin 2) * 64 + 1 * (y 1).val = (y 1).val; omega

/-- The bias window's one block is its whole array. -/
theorem blk6_2 (c : Dev nD) (t : Fin cfg6.N) : (iblk6 V c 2 t : S1x64.Idx → EReal) = V c main_v12 := by
  obtain ⟨-, -, -, -, e0, e1, -⟩ := idx6 t
  funext y
  show V c main_v12 (((cfg6.win 2).blk t).view.emb y) = V c main_v12 y
  refine congrArg (V c main_v12) (funext fun a => Fin.ext ?_)
  match a with
  | ⟨0, _⟩ => show win6_2.index t (0 : Fin 2) * 1 + 1 * (y 0).val = (y 0).val; omega
  | ⟨1, _⟩ => show win6_2.index t (1 : Fin 2) * 64 + 1 * (y 1).val = (y 1).val; omega

/-- Entry `(p, q)` of the output window's block at point `t` is entry `(400 t + p, q)` of its array. -/
theorem emb6_3 (t : Fin cfg6.N) (p : Fin 400) (q : Fin 64) :
    ((cfg6.win 3).blk t).view.emb (ix2 p q) = (ix2 (row6 t p) q : S10000x64.Idx) := by
  obtain ⟨-, -, -, -, -, -, e0, e1⟩ := idx6 t
  refine funext fun a => Fin.ext ?_
  match a with
  | ⟨0, _⟩ => show win6_3.index t (0 : Fin 2) * 400 + 1 * p.val = t.val * 400 + p.val; omega
  | ⟨1, _⟩ => show win6_3.index t (1 : Fin 2) * 64 + 1 * q.val = q.val; omega

/-- What the array ends holding: the output layer of the arrays the region finds. -/
def G6 (c : Dev nD) : S10000x64.Idx → EReal :=
  Cert.Gcn.arr2 (Cert.Gcn.output (V c main_v0) (V c main_v11) (fun k => V c main_v12 (ix2 (0 : Fin 1) k)))

/-- What point `t` writes back is block `t` of that one matrix. -/
theorem flushed6 (c : Dev nD) (t : Fin cfg6.N) :
    (dat6 (F := Ideal) V c).flushed 3 t = ((cfg6.win 3).blk t).view.read (Elt Ideal) (G6 V c) := by
  show (cfg6.win 3).cut (grid6.coords t) ((dat6 V c).after 3 t) = _
  rw [after6_3]
  unfold out6_3
  rw [View.canon_unit_zero zero_offsets6]
  simp only [View.ld_unit_zero (S := S400x10000) zero_offsets6, View.ld_unit_zero (S := S10000x64) zero_offsets6,
    View.ld_unit_zero (S := S1x64) zero_offsets6]
  funext j
  show k6_pay1 (F := Ideal) (iblk6 V c 0 t) (iblk6 V c 1 t) (iblk6 V c 2 t) j
    = G6 V c (((cfg6.win 3).blk t).view.emb j)
  obtain ⟨p, q, rfl⟩ : ∃ (p : Fin 400) (q : Fin 64), j = ix2 p q := ⟨j 0, j 1, eq_ix2 j⟩
  refine (pay6_apply (iblk6 V c 0 t) (iblk6 V c 1 t) (iblk6 V c 2 t) p q).trans ?_
  rw [emb6_3 t p q]
  unfold G6
  rw [Cert.Gcn.arr2_ix2, blk6_1 V c t, blk6_2 V c t]
  exact Cert.Gcn.output_congr_row _ _ _ _ p (row6 t p) (fun j => blk6_0 V c t p j) q

/-- An index of the array is in point `t`'s block iff each coordinate is in the block's range on its axis. -/
theorem mem_blk6 (t : Fin cfg6.N) (i : S10000x64.Idx) :
    i ∈ ((cfg6.win 3).blk t).view.set ↔ ∀ a : Fin 2, win6_3.index t a * S400x64.size a ≤ (i a).val ∧ (i a).val < win6_3.index t a * S400x64.size a + S400x64.size a := by
  show i ∈ ((View.whole main_v13).slice (win6_3.rect t)).set ↔ _
  rw [View.set_slice_whole, Rect.mem_set_unit]
  exact Iff.rfl

/-- The 25 blocks of 400 rows tile the 10000 rows: row `r` is in the block of point `r / 400`. -/
theorem cover6 (i : S10000x64.Idx) : ∃ t : Fin cfg6.N, (cfg6.win 3).flush t = true ∧ i ∈ ((cfg6.win 3).blk t).view.set := by
  have hi0 : (i 0).val < 10000 := (i 0).isLt
  have hi1 : (i 1).val < 64 := (i 1).isLt
  let t : Fin cfg6.N := ⟨(i 0).val / 400, by rw [show cfg6.N = 25 from N_6]; omega⟩
  obtain ⟨-, -, -, -, -, -, e0, e1⟩ := idx6 t
  refine ⟨t, flush6_3 t, ?_⟩
  rw [mem_blk6]
  intro a
  have ht : t.val = (i 0).val / 400 := rfl
  match a with
  | ⟨0, _⟩ => show win6_3.index t (0 : Fin 2) * 400 ≤ (i 0).val ∧ (i 0).val < win6_3.index t (0 : Fin 2) * 400 + 400; omega
  | ⟨1, _⟩ => show win6_3.index t (1 : Fin 2) * 64 ≤ (i 1).val ∧ (i 1).val < win6_3.index t (1 : Fin 2) * 64 + 64; omega

/-- THE ARRAY after the region: the output layer of the arrays it found, whatever those are named. -/
theorem final6 (c : Dev nD) (a : S10000x10000.Idx → EReal) (s : S10000x64.Idx → EReal) (b : S1x64.Idx → EReal)
    (ha : V c main_v0 = a) (hs : V c main_v11 = s) (hb : V c main_v12 = b) :
    (dat6 (F := Ideal) V c).arrAt 3 cfg6.N
      = Cert.Gcn.arr2 (Cert.Gcn.output a s (fun k => b (ix2 (0 : Fin 1) k))) := by
  subst ha hs hb
  exact (dat6 (F := Ideal) V c).arrAt_eq_of_cover 3 (G6 V c) (fun t _ => flushed6 V c t) cover6

end Cert.KernelIdeal.Layers

end
-- ==== Proof.Boundaries.lean ====
/- The buffer contents at the region boundaries of @main, read back through the fold of the frame certificate:
   what each of the seven regions finds in its arrays when it is entered, and the result array at the end.
   A host operation changes only its result array and a region changes only its output array, so every other
   array is carried over a segment unchanged; an array nothing has written yet is at its launch contents. -/
import proofs.«178979_g56126632624284_cont_9to1_m_1356_2_alg».proof.Proof.Gen.KernelIdeal.Frame
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One host stretch: the array it writes, and every other array -/

section Host

variable (W : Valuation τ sig (Elt F)) (b : Ref sig .tc)

/-- The conversion writes `main_v0` only. -/
theorem host0_keep (hb : b ≠ main_v0) :
    StableHlo.after hostOps0 W (Proc.devRef .tc b) = W (Proc.devRef .tc b) :=
  StableHlo.unary_result_ne main_arg1 main_v0 _ _ _ W hb
/-- The reshape of `main_arg3` writes `main_v2` only. -/
theorem host1_keep (hb : b ≠ main_v2) :
    StableHlo.after hostOps1 W (Proc.devRef .tc b) = W (Proc.devRef .tc b) :=
  StableHlo.reshape_result_ne main_arg3 main_v2 rfl shapeCasts_S128_S1x128 _ _ W hb
/-- The reshape of `main_arg5` writes `main_v4` only. -/
theorem host2_keep (hb : b ≠ main_v4) :
    StableHlo.after hostOps2 W (Proc.devRef .tc b) = W (Proc.devRef .tc b) :=
  StableHlo.reshape_result_ne main_arg5 main_v4 rfl shapeCasts_S128_S1x128 _ _ W hb
/-- The reshape of `main_arg7` writes `main_v6` only. -/
theorem host3_keep (hb : b ≠ main_v6) :
    StableHlo.after hostOps3 W (Proc.devRef .tc b) = W (Proc.devRef .tc b) :=
  StableHlo.reshape_result_ne main_arg7 main_v6 rfl shapeCasts_S128_S1x128 _ _ W hb
/-- The reshape of `main_arg9` writes `main_v8` only. -/
theorem host4_keep (hb : b ≠ main_v8) :
    StableHlo.after hostOps4 W (Proc.devRef .tc b) = W (Proc.devRef .tc b) :=
  StableHlo.reshape_result_ne main_arg9 main_v8 rfl shapeCasts_S128_S1x128 _ _ W hb
/-- The reshape of `main_arg11` writes `main_v10` only. -/
theorem host5_keep (hb : b ≠ main_v10) :
    StableHlo.after hostOps5 W (Proc.devRef .tc b) = W (Proc.devRef .tc b) :=
  StableHlo.reshape_result_ne main_arg11 main_v10 rfl shapeCasts_S128_S1x128 _ _ W hb
/-- The reshape of `main_arg13` writes `main_v12` only. -/
theorem host6_keep (hb : b ≠ main_v12) :
    StableHlo.after hostOps6 W (Proc.devRef .tc b) = W (Proc.devRef .tc b) :=
  StableHlo.reshape_result_ne main_arg13 main_v12 rfl shapeCasts_S64_S1x64 _ _ W hb

/-- After the conversion `main_v0` holds the f32 matrix in `main_arg1` rounded to bf16. -/
theorem host0_val {x : (⟨S10000x10000, .f32⟩ : BufTy).Contents (Elt F)} (hx : W (Proc.devRef .tc main_arg1) = x) :
    StableHlo.after hostOps0 W (Proc.devRef .tc main_v0) = truncf .bf16 x bitsLt_bf16_f32 := by
  subst hx; after_results <;> rfl
/-- After its reshape `main_v2` holds the vector in `main_arg3` as a one-row matrix. -/
theorem host1_val {x : (⟨S128, .f32⟩ : BufTy).Contents (Elt F)} (hx : W (Proc.devRef .tc main_arg3) = x) :
    StableHlo.after hostOps1 W (Proc.devRef .tc main_v2) = shapeCast S1x128 x shapeCasts_S128_S1x128 := by
  subst hx; after_results <;> rfl
/-- After its reshape `main_v4` holds the vector in `main_arg5` as a one-row matrix. -/
theorem host2_val {x : (⟨S128, .f32⟩ : BufTy).Contents (Elt F)} (hx : W (Proc.devRef .tc main_arg5) = x) :
    StableHlo.after hostOps2 W (Proc.devRef .tc main_v4) = shapeCast S1x128 x shapeCasts_S128_S1x128 := by
  subst hx; after_results <;> rfl
/-- After its reshape `main_v6` holds the vector in `main_arg7` as a one-row matrix. -/
theorem host3_val {x : (⟨S128, .f32⟩ : BufTy).Contents (Elt F)} (hx : W (Proc.devRef .tc main_arg7) = x) :
    StableHlo.after hostOps3 W (Proc.devRef .tc main_v6) = shapeCast S1x128 x shapeCasts_S128_S1x128 := by
  subst hx; after_results <;> rfl
/-- After its reshape `main_v8` holds the vector in `main_arg9` as a one-row matrix. -/
theorem host4_val {x : (⟨S128, .f32⟩ : BufTy).Contents (Elt F)} (hx : W (Proc.devRef .tc main_arg9) = x) :
    StableHlo.after hostOps4 W (Proc.devRef .tc main_v8) = shapeCast S1x128 x shapeCasts_S128_S1x128 := by
  subst hx; after_results <;> rfl
/-- After its reshape `main_v10` holds the vector in `main_arg11` as a one-row matrix. -/
theorem host5_val {x : (⟨S128, .f32⟩ : BufTy).Contents (Elt F)} (hx : W (Proc.devRef .tc main_arg11) = x) :
    StableHlo.after hostOps5 W (Proc.devRef .tc main_v10) = shapeCast S1x128 x shapeCasts_S128_S1x128 := by
  subst hx; after_results <;> rfl
/-- After its reshape `main_v12` holds the vector in `main_arg13` as a one-row matrix. -/
theorem host6_val {x : (⟨S64, .f32⟩ : BufTy).Contents (Elt F)} (hx : W (Proc.devRef .tc main_arg13) = x) :
    StableHlo.after hostOps6 W (Proc.devRef .tc main_v12) = shapeCast S1x64 x shapeCasts_S64_S1x64 := by
  subst hx; after_results <;> rfl

end Host

/-! ## One region: every array but its output is as the region found it

An array of the region other than its output is read through an input window, which the pipeline never writes back;
an array that is none of the region's is bypassed. -/

section Region

variable (c : Dev nD) (b : Ref sig .tc)

theorem reg0_keep (hb : b ≠ main_v1) : W2 m ρ c (Proc.devRef .tc b) = W1 m ρ c (Proc.devRef .tc b) := by
  by_cases h : ∃ w, Pipeline.arrRef spec0 w = b
  · obtain ⟨w, rfl⟩ := h
    have hin : (cfg0.win w).isOut = false :=
      (by decide : ∀ w : Fin cfg0.W, Pipeline.arrRef spec0 w ≠ main_v1 → (cfg0.win w).isOut = false) w hb
    exact (W2_arr m ρ c w).trans (((dat0 (V1 m ρ) c).arrAt_in w hin _).trans (A_eq0 (V1 m ρ) c w))
  · exact W2_of_ne m ρ c b fun w e => h ⟨w, e⟩

theorem reg1_keep (hb : b ≠ main_v3) : W4 m ρ c (Proc.devRef .tc b) = W3 m ρ c (Proc.devRef .tc b) := by
  by_cases h : ∃ w, Pipeline.arrRef spec1 w = b
  · obtain ⟨w, rfl⟩ := h
    have hin : (cfg1.win w).isOut = false :=
      (by decide : ∀ w : Fin cfg1.W, Pipeline.arrRef spec1 w ≠ main_v3 → (cfg1.win w).isOut = false) w hb
    exact (W4_arr m ρ c w).trans (((dat1 (V3 m ρ) c).arrAt_in w hin _).trans (A_eq1 (V3 m ρ) c w))
  · exact W4_of_ne m ρ c b fun w e => h ⟨w, e⟩

theorem reg2_keep (hb : b ≠ main_v5) : W6 m ρ c (Proc.devRef .tc b) = W5 m ρ c (Proc.devRef .tc b) := by
  by_cases h : ∃ w, Pipeline.arrRef spec2 w = b
  · obtain ⟨w, rfl⟩ := h
    have hin : (cfg2.win w).isOut = false :=
      (by decide : ∀ w : Fin cfg2.W, Pipeline.arrRef spec2 w ≠ main_v5 → (cfg2.win w).isOut = false) w hb
    exact (W6_arr m ρ c w).trans (((dat2 (V5 m ρ) c).arrAt_in w hin _).trans (A_eq2 (V5 m ρ) c w))
  · exact W6_of_ne m ρ c b fun w e => h ⟨w, e⟩

theorem reg3_keep (hb : b ≠ main_v7) : W8 m ρ c (Proc.devRef .tc b) = W7 m ρ c (Proc.devRef .tc b) := by
  by_cases h : ∃ w, Pipeline.arrRef spec3 w = b
  · obtain ⟨w, rfl⟩ := h
    have hin : (cfg3.win w).isOut = false :=
      (by decide : ∀ w : Fin cfg3.W, Pipeline.arrRef spec3 w ≠ main_v7 → (cfg3.win w).isOut = false) w hb
    exact (W8_arr m ρ c w).trans (((dat3 (V7 m ρ) c).arrAt_in w hin _).trans (A_eq3 (V7 m ρ) c w))
  · exact W8_of_ne m ρ c b fun w e => h ⟨w, e⟩

theorem reg4_keep (hb : b ≠ main_v9) : W10 m ρ c (Proc.devRef .tc b) = W9 m ρ c (Proc.devRef .tc b) := by
  by_cases h : ∃ w, Pipeline.arrRef spec4 w = b
  · obtain ⟨w, rfl⟩ := h
    have hin : (cfg4.win w).isOut = false :=
      (by decide : ∀ w : Fin cfg4.W, Pipeline.arrRef spec4 w ≠ main_v9 → (cfg4.win w).isOut = false) w hb
    exact (W10_arr m ρ c w).trans (((dat4 (V9 m ρ) c).arrAt_in w hin _).trans (A_eq4 (V9 m ρ) c w))
  · exact W10_of_ne m ρ c b fun w e => h ⟨w, e⟩

theorem reg5_keep (hb : b ≠ main_v11) : W12 m ρ c (Proc.devRef .tc b) = W11 m ρ c (Proc.devRef .tc b) := by
  by_cases h : ∃ w, Pipeline.arrRef spec5 w = b
  · obtain ⟨w, rfl⟩ := h
    have hin : (cfg5.win w).isOut = false :=
      (by decide : ∀ w : Fin cfg5.W, Pipeline.arrRef spec5 w ≠ main_v11 → (cfg5.win w).isOut = false) w hb
    exact (W12_arr m ρ c w).trans (((dat5 (V11 m ρ) c).arrAt_in w hin _).trans (A_eq5 (V11 m ρ) c w))
  · exact W12_of_ne m ρ c b fun w e => h ⟨w, e⟩

end Region

/-! ## An array that no operation of @main writes is at its launch contents at every boundary -/

/-- The arrays @main's operations write, in program order: the host operations the even ones, the regions the odd. -/
abbrev written : List (Ref sig .tc) :=
  [main_v0, main_v1, main_v2, main_v3, main_v4, main_v5, main_v6, main_v7, main_v8, main_v9, main_v10, main_v11,
    main_v12, main_v13]

theorem ne_of_not_written {b r : Ref sig .tc} (hb : b ∉ written) (hr : r ∈ written) : b ≠ r :=
  fun e => hb (e ▸ hr)

section Kept

variable (c : Dev nD) (b : Ref sig .tc) (hb : b ∉ written)
include hb

theorem keep1 : W1 m ρ c (Proc.devRef .tc b) = m ((c : Thread nD τ).loc b) :=
  host0_keep (W0 m ρ c) b (ne_of_not_written hb (by decide))
theorem keep2 : W2 m ρ c (Proc.devRef .tc b) = m ((c : Thread nD τ).loc b) :=
  (reg0_keep m ρ c b (ne_of_not_written hb (by decide))).trans (keep1 m ρ c b hb)
theorem keep3 : W3 m ρ c (Proc.devRef .tc b) = m ((c : Thread nD τ).loc b) :=
  (host1_keep (W2 m ρ c) b (ne_of_not_written hb (by decide))).trans (keep2 m ρ c b hb)
theorem keep4 : W4 m ρ c (Proc.devRef .tc b) = m ((c : Thread nD τ).loc b) :=
  (reg1_keep m ρ c b (ne_of_not_written hb (by decide))).trans (keep3 m ρ c b hb)
theorem keep5 : W5 m ρ c (Proc.devRef .tc b) = m ((c : Thread nD τ).loc b) :=
  (host2_keep (W4 m ρ c) b (ne_of_not_written hb (by decide))).trans (keep4 m ρ c b hb)
theorem keep6 : W6 m ρ c (Proc.devRef .tc b) = m ((c : Thread nD τ).loc b) :=
  (reg2_keep m ρ c b (ne_of_not_written hb (by decide))).trans (keep5 m ρ c b hb)
theorem keep7 : W7 m ρ c (Proc.devRef .tc b) = m ((c : Thread nD τ).loc b) :=
  (host3_keep (W6 m ρ c) b (ne_of_not_written hb (by decide))).trans (keep6 m ρ c b hb)
theorem keep8 : W8 m ρ c (Proc.devRef .tc b) = m ((c : Thread nD τ).loc b) :=
  (reg3_keep m ρ c b (ne_of_not_written hb (by decide))).trans (keep7 m ρ c b hb)
theorem keep9 : W9 m ρ c (Proc.devRef .tc b) = m ((c : Thread nD τ).loc b) :=
  (host4_keep (W8 m ρ c) b (ne_of_not_written hb (by decide))).trans (keep8 m ρ c b hb)
theorem keep10 : W10 m ρ c (Proc.devRef .tc b) = m ((c : Thread nD τ).loc b) :=
  (reg4_keep m ρ c b (ne_of_not_written hb (by decide))).trans (keep9 m ρ c b hb)
theorem keep11 : W11 m ρ c (Proc.devRef .tc b) = m ((c : Thread nD τ).loc b) :=
  (host5_keep (W10 m ρ c) b (ne_of_not_written hb (by decide))).trans (keep10 m ρ c b hb)
theorem keep12 : W12 m ρ c (Proc.devRef .tc b) = m ((c : Thread nD τ).loc b) :=
  (reg5_keep m ρ c b (ne_of_not_written hb (by decide))).trans (keep11 m ρ c b hb)

end Kept

/-! ## What each region finds in its arrays, and the result array at the end -/

section Entries

variable (c : Dev nD)

/-- The adjacency matrix rounded to bf16: what the first host operation leaves in `main_v0`, which nothing writes
    again and which regions 1 to 6 read through their window 0. -/
abbrev adjb : (⟨S10000x10000, .bf16⟩ : BufTy).Contents (Elt F) :=
  truncf .bf16 (m ((c : Thread nD τ).loc main_arg1) : (⟨S10000x10000, .f32⟩ : BufTy).Contents (Elt F)) bitsLt_bf16_f32

/-! ### Region 0 -/

theorem e1_arg0 : V1 m ρ c main_arg0 = m ((c : Thread nD τ).loc main_arg0) := keep1 m ρ c main_arg0 (by decide)
theorem e1_arg2 : V1 m ρ c main_arg2 = m ((c : Thread nD τ).loc main_arg2) := keep1 m ρ c main_arg2 (by decide)
theorem e1_v0 : V1 m ρ c main_v0 = adjb m c := host0_val (W0 m ρ c) rfl

/-! ### Region 1 -/

theorem e3_v0 : V3 m ρ c main_v0 = adjb m c :=
  (host1_keep (W2 m ρ c) main_v0 (by decide)).trans ((reg0_keep m ρ c main_v0 (by decide)).trans (e1_v0 m ρ c))
theorem e3_v1 : V3 m ρ c main_v1 = (dat0 (V1 m ρ) c).arrAt 2 cfg0.N :=
  (host1_keep (W2 m ρ c) main_v1 (by decide)).trans (W2_arr m ρ c 2)
theorem e3_v2 : V3 m ρ c main_v2
    = shapeCast S1x128 (m ((c : Thread nD τ).loc main_arg3) : (⟨S128, .f32⟩ : BufTy).Contents (Elt F)) shapeCasts_S128_S1x128 :=
  host1_val (W2 m ρ c) (keep2 m ρ c main_arg3 (by decide))
theorem e3_arg4 : V3 m ρ c main_arg4 = m ((c : Thread nD τ).loc main_arg4) := keep3 m ρ c main_arg4 (by decide)

/-! ### Region 2 -/

theorem e5_v0 : V5 m ρ c main_v0 = adjb m c :=
  (host2_keep (W4 m ρ c) main_v0 (by decide)).trans ((reg1_keep m ρ c main_v0 (by decide)).trans (e3_v0 m ρ c))
theorem e5_v3 : V5 m ρ c main_v3 = (dat1 (V3 m ρ) c).arrAt 4 cfg1.N :=
  (host2_keep (W4 m ρ c) main_v3 (by decide)).trans (W4_arr m ρ c 4)
theorem e5_v4 : V5 m ρ c main_v4
    = shapeCast S1x128 (m ((c : Thread nD τ).loc main_arg5) : (⟨S128, .f32⟩ : BufTy).Contents (Elt F)) shapeCasts_S128_S1x128 :=
  host2_val (W4 m ρ c) (keep4 m ρ c main_arg5 (by decide))
theorem e5_arg6 : V5 m ρ c main_arg6 = m ((c : Thread nD τ).loc main_arg6) := keep5 m ρ c main_arg6 (by decide)

/-! ### Region 3 -/

theorem e7_v0 : V7 m ρ c main_v0 = adjb m c :=
  (host3_keep (W6 m ρ c) main_v0 (by decide)).trans ((reg2_keep m ρ c main_v0 (by decide)).trans (e5_v0 m ρ c))
theorem e7_v5 : V7 m ρ c main_v5 = (dat2 (V5 m ρ) c).arrAt 4 cfg2.N :=
  (host3_keep (W6 m ρ c) main_v5 (by decide)).trans (W6_arr m ρ c 4)
theorem e7_v6 : V7 m ρ c main_v6
    = shapeCast S1x128 (m ((c : Thread nD τ).loc main_arg7) : (⟨S128, .f32⟩ : BufTy).Contents (Elt F)) shapeCasts_S128_S1x128 :=
  host3_val (W6 m ρ c) (keep6 m ρ c main_arg7 (by decide))
theorem e7_arg8 : V7 m ρ c main_arg8 = m ((c : Thread nD τ).loc main_arg8) := keep7 m ρ c main_arg8 (by decide)

/-! ### Region 4 -/

theorem e9_v0 : V9 m ρ c main_v0 = adjb m c :=
  (host4_keep (W8 m ρ c) main_v0 (by decide)).trans ((reg3_keep m ρ c main_v0 (by decide)).trans (e7_v0 m ρ c))
theorem e9_v7 : V9 m ρ c main_v7 = (dat3 (V7 m ρ) c).arrAt 4 cfg3.N :=
  (host4_keep (W8 m ρ c) main_v7 (by decide)).trans (W8_arr m ρ c 4)
theorem e9_v8 : V9 m ρ c main_v8
    = shapeCast S1x128 (m ((c : Thread nD τ).loc main_arg9) : (⟨S128, .f32⟩ : BufTy).Contents (Elt F)) shapeCasts_S128_S1x128 :=
  host4_val (W8 m ρ c) (keep8 m ρ c main_arg9 (by decide))
theorem e9_arg10 : V9 m ρ c main_arg10 = m ((c : Thread nD τ).loc main_arg10) := keep9 m ρ c main_arg10 (by decide)

/-! ### Region 5 -/

theorem e11_v0 : V11 m ρ c main_v0 = adjb m c :=
  (host5_keep (W10 m ρ c) main_v0 (by decide)).trans ((reg4_keep m ρ c main_v0 (by decide)).trans (e9_v0 m ρ c))
theorem e11_v9 : V11 m ρ c main_v9 = (dat4 (V9 m ρ) c).arrAt 4 cfg4.N :=
  (host5_keep (W10 m ρ c) main_v9 (by decide)).trans (W10_arr m ρ c 4)
theorem e11_v10 : V11 m ρ c main_v10
    = shapeCast S1x128 (m ((c : Thread nD τ).loc main_arg11) : (⟨S128, .f32⟩ : BufTy).Contents (Elt F)) shapeCasts_S128_S1x128 :=
  host5_val (W10 m ρ c) (keep10 m ρ c main_arg11 (by decide))
theorem e11_arg12 : V11 m ρ c main_arg12 = m ((c : Thread nD τ).loc main_arg12) := keep11 m ρ c main_arg12 (by decide)

/-! ### Region 6 -/

theorem e13_v0 : V13 m ρ c main_v0 = adjb m c :=
  (host6_keep (W12 m ρ c) main_v0 (by decide)).trans ((reg5_keep m ρ c main_v0 (by decide)).trans (e11_v0 m ρ c))
theorem e13_v11 : V13 m ρ c main_v11 = (dat5 (V11 m ρ) c).arrAt 4 cfg5.N :=
  (host6_keep (W12 m ρ c) main_v11 (by decide)).trans (W12_arr m ρ c 4)
theorem e13_v12 : V13 m ρ c main_v12
    = shapeCast S1x64 (m ((c : Thread nD τ).loc main_arg13) : (⟨S64, .f32⟩ : BufTy).Contents (Elt F)) shapeCasts_S64_S1x64 :=
  host6_val (W12 m ρ c) (keep12 m ρ c main_arg13 (by decide))

/-! ### The result -/

/-- At the end the result array holds what region 6's pipeline leaves in its output window's array. -/
theorem out_v13 : W14 m ρ c (Proc.devRef .tc main_v13) = (dat6 (V13 m ρ) c).arrAt 3 cfg6.N := W14_arr m ρ c 3

end Entries

end Cert.KernelIdeal.Chain

end
-- ==== Proof.GcnNet.lean ====
/-
  The six layers composed. With features `x`, adjacency `a`, weights `w1 … w6` and biases `b1 … b6`:
  `s0 = x · w1`, `s_k = relu (a · s_(k-1) + b_k) · w_(k+1)` for `k = 1 … 5`, and the result `a · s5 + b6`. Each
  stage is the support matrix the next layer multiplies the adjacency matrix with. A bias vector recast as a one-row
  matrix reads its entry `k` at `(0, k)`.
-/
import proofs.«178979_g56126632624284_cont_9to1_m_1356_2_alg».proof.Proof.GcnLayer

noncomputable section

namespace Cert.Gcn

open Idealize.ShloMosaic Idealize.ShloMosaic.ValueIdx

/-- A bias vector `[C]` recast as a row `[1, C]` reads its entry `k` at `(0, k)`: both sit at row-major position `k`. -/
theorem bias_row_cast {C : Nat} (h : (⟨1, ![C]⟩ : Shape).ShapeCasts ⟨2, ![1, C]⟩)
    (b : (⟨1, ![C]⟩ : Shape).Idx → EReal) (k : Fin C) :
    shapeCast ⟨2, ![1, C]⟩ b h (ix2 (0 : Fin 1) k) = b (ix1 k) := by
  refine shapeCast_apply b h (ix2 (0 : Fin 1) k) (ix1 k) ?_
  rw [Shape.rowMajor_val_one, Shape.rowMajor_val_two]
  show k.val = 0 * C + k.val
  omega

/-- The same for the whole row: the recast bias as a function of the column. -/
theorem bias_row_cast_fun {C : Nat} (h : (⟨1, ![C]⟩ : Shape).ShapeCasts ⟨2, ![1, C]⟩)
    (b : (⟨1, ![C]⟩ : Shape).Idx → EReal) :
    (fun k : Fin C => shapeCast ⟨2, ![1, C]⟩ b h (ix2 (0 : Fin 1) k)) = fun k => b (ix1 k) :=
  funext fun k => bias_row_cast h b k

section Stages

variable (x : (⟨2, ![10000, 128]⟩ : Shape).Idx → EReal) (a : (⟨2, ![10000, 10000]⟩ : Shape).Idx → EReal)
  (w1 : (⟨2, ![128, 128]⟩ : Shape).Idx → EReal) (b1 : Fin 128 → EReal)
  (w2 : (⟨2, ![128, 128]⟩ : Shape).Idx → EReal) (b2 : Fin 128 → EReal)
  (w3 : (⟨2, ![128, 128]⟩ : Shape).Idx → EReal) (b3 : Fin 128 → EReal)
  (w4 : (⟨2, ![128, 128]⟩ : Shape).Idx → EReal) (b4 : Fin 128 → EReal)
  (w5 : (⟨2, ![128, 128]⟩ : Shape).Idx → EReal) (b5 : Fin 128 → EReal)
  (w6 : (⟨2, ![128, 64]⟩ : Shape).Idx → EReal) (b6 : Fin 64 → EReal)

/-- The first layer's support `x · w1`. -/
def s0 : (⟨2, ![10000, 128]⟩ : Shape).Idx → EReal := arr2 (prod x w1)
/-- The second layer's support `relu (a · s0 + b1) · w2`. -/
def s1 : (⟨2, ![10000, 128]⟩ : Shape).Idx → EReal := arr2 (layer a (s0 x w1) b1 w2)
/-- The third layer's support. -/
def s2 : (⟨2, ![10000, 128]⟩ : Shape).Idx → EReal := arr2 (layer a (s1 x a w1 b1 w2) b2 w3)
/-- The fourth layer's support. -/
def s3 : (⟨2, ![10000, 128]⟩ : Shape).Idx → EReal := arr2 (layer a (s2 x a w1 b1 w2 b2 w3) b3 w4)
/-- The fifth layer's support. -/
def s4 : (⟨2, ![10000, 128]⟩ : Shape).Idx → EReal := arr2 (layer a (s3 x a w1 b1 w2 b2 w3 b3 w4) b4 w5)
/-- The last layer's support, 64 columns wide. -/
def s5 : (⟨2, ![10000, 64]⟩ : Shape).Idx → EReal := arr2 (layer a (s4 x a w1 b1 w2 b2 w3 b3 w4 b4 w5) b5 w6)
/-- The network's result `a · s5 + b6`. -/
def net : (⟨2, ![10000, 64]⟩ : Shape).Idx → EReal :=
  arr2 (output a (s5 x a w1 b1 w2 b2 w3 b3 w4 b4 w5 b5 w6) b6)

end Stages

end Cert.Gcn

end
-- ==== Proof.KernelNet.lean ====
import proofs.«178979_g56126632624284_cont_9to1_m_1356_2_alg».proof.Proof.Region0
import proofs.«178979_g56126632624284_cont_9to1_m_1356_2_alg».proof.Proof.Region1
import proofs.«178979_g56126632624284_cont_9to1_m_1356_2_alg».proof.Proof.Region2
import proofs.«178979_g56126632624284_cont_9to1_m_1356_2_alg».proof.Proof.Region3
import proofs.«178979_g56126632624284_cont_9to1_m_1356_2_alg».proof.Proof.Region4
import proofs.«178979_g56126632624284_cont_9to1_m_1356_2_alg».proof.Proof.Region5
import proofs.«178979_g56126632624284_cont_9to1_m_1356_2_alg».proof.Proof.Region6
import proofs.«178979_g56126632624284_cont_9to1_m_1356_2_alg».proof.Proof.Boundaries
import proofs.«178979_g56126632624284_cont_9to1_m_1356_2_alg».proof.Proof.GcnNet

set_option maxRecDepth 16384

noncomputable section

/-
  The result array of the idealized kernel program as the six layers composed, of the launch contents of the
  fourteen arguments. Each region's output array is the layer function of the arrays the region finds when it is
  entered; those are the launch contents of the arguments (converted: the identity; a bias recast as a one-row
  matrix), and the output array of the region before.
-/

namespace Cert.KernelIdeal.Net

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## The arguments' launch contents, as arrays and bias rows -/

abbrev xF : S10000x128.Idx → EReal := m ((c : Thread nD τ).loc main_arg0)
abbrev aF : S10000x10000.Idx → EReal := m ((c : Thread nD τ).loc main_arg1)
abbrev w1F : S128x128.Idx → EReal := m ((c : Thread nD τ).loc main_arg2)
abbrev b1F : Fin 128 → EReal := fun k => m ((c : Thread nD τ).loc main_arg3) (ix1 k)
abbrev w2F : S128x128.Idx → EReal := m ((c : Thread nD τ).loc main_arg4)
abbrev b2F : Fin 128 → EReal := fun k => m ((c : Thread nD τ).loc main_arg5) (ix1 k)
abbrev w3F : S128x128.Idx → EReal := m ((c : Thread nD τ).loc main_arg6)
abbrev b3F : Fin 128 → EReal := fun k => m ((c : Thread nD τ).loc main_arg7) (ix1 k)
abbrev w4F : S128x128.Idx → EReal := m ((c : Thread nD τ).loc main_arg8)
abbrev b4F : Fin 128 → EReal := fun k => m ((c : Thread nD τ).loc main_arg9) (ix1 k)
abbrev w5F : S128x128.Idx → EReal := m ((c : Thread nD τ).loc main_arg10)
abbrev b5F : Fin 128 → EReal := fun k => m ((c : Thread nD τ).loc main_arg11) (ix1 k)
abbrev w6F : S128x64.Idx → EReal := m ((c : Thread nD τ).loc main_arg12)
abbrev b6F : Fin 64 → EReal := fun k => m ((c : Thread nD τ).loc main_arg13) (ix1 k)

/-! ## Region by region -/

/-- After the first region: `x · w1`. -/
theorem k0 : (dat0 (F := Ideal) (V1 m ρ) c).arrAt 2 cfg0.N = Cert.Gcn.s0 (xF m c) (w1F m c) :=
  Layers.final0 (V1 m ρ) c _ _ (Chain.e1_arg0 m ρ c) (Chain.e1_arg2 m ρ c)

/-- After the second region: the first hidden layer times `w2`. -/
theorem k1 : (dat1 (F := Ideal) (V3 m ρ) c).arrAt 4 cfg1.N
    = Cert.Gcn.s1 (xF m c) (aF m c) (w1F m c) (b1F m c) (w2F m c) :=
  (Layers.final1 (V3 m ρ) c (aF m c) (Cert.Gcn.s0 (xF m c) (w1F m c)) _ (w2F m c) (Chain.e3_v0 m ρ c)
      ((Chain.e3_v1 m ρ c).trans (k0 m ρ c)) (Chain.e3_v2 m ρ c) (Chain.e3_arg4 m ρ c)).trans
    (congrArg (fun b => Cert.Gcn.arr2 (Cert.Gcn.layer (aF m c) (Cert.Gcn.s0 (xF m c) (w1F m c)) b (w2F m c)))
      (Cert.Gcn.bias_row_cast_fun _ _))

/-- After the third region. -/
theorem k2 : (dat2 (F := Ideal) (V5 m ρ) c).arrAt 4 cfg2.N
    = Cert.Gcn.s2 (xF m c) (aF m c) (w1F m c) (b1F m c) (w2F m c) (b2F m c) (w3F m c) :=
  (Layers.final2 (V5 m ρ) c (aF m c) (Cert.Gcn.s1 (xF m c) (aF m c) (w1F m c) (b1F m c) (w2F m c)) _ (w3F m c)
      (Chain.e5_v0 m ρ c) ((Chain.e5_v3 m ρ c).trans (k1 m ρ c)) (Chain.e5_v4 m ρ c) (Chain.e5_arg6 m ρ c)).trans
    (congrArg (fun b => Cert.Gcn.arr2 (Cert.Gcn.layer (aF m c)
        (Cert.Gcn.s1 (xF m c) (aF m c) (w1F m c) (b1F m c) (w2F m c)) b (w3F m c)))
      (Cert.Gcn.bias_row_cast_fun _ _))

/-- After the fourth region. -/
theorem k3 : (dat3 (F := Ideal) (V7 m ρ) c).arrAt 4 cfg3.N
    = Cert.Gcn.s3 (xF m c) (aF m c) (w1F m c) (b1F m c) (w2F m c) (b2F m c) (w3F m c) (b3F m c) (w4F m c) :=
  (Layers.final3 (V7 m ρ) c (aF m c)
      (Cert.Gcn.s2 (xF m c) (aF m c) (w1F m c) (b1F m c) (w2F m c) (b2F m c) (w3F m c)) _ (w4F m c)
      (Chain.e7_v0 m ρ c) ((Chain.e7_v5 m ρ c).trans (k2 m ρ c)) (Chain.e7_v6 m ρ c) (Chain.e7_arg8 m ρ c)).trans
    (congrArg (fun b => Cert.Gcn.arr2 (Cert.Gcn.layer (aF m c)
        (Cert.Gcn.s2 (xF m c) (aF m c) (w1F m c) (b1F m c) (w2F m c) (b2F m c) (w3F m c)) b (w4F m c)))
      (Cert.Gcn.bias_row_cast_fun _ _))

/-- After the fifth region. -/
theorem k4 : (dat4 (F := Ideal) (V9 m ρ) c).arrAt 4 cfg4.N
    = Cert.Gcn.s4 (xF m c) (aF m c) (w1F m c) (b1F m c) (w2F m c) (b2F m c) (w3F m c) (b3F m c) (w4F m c) (b4F m c) (w5F m c) :=
  (Layers.final4 (V9 m ρ) c (aF m c)
      (Cert.Gcn.s3 (xF m c) (aF m c) (w1F m c) (b1F m c) (w2F m c) (b2F m c) (w3F m c) (b3F m c) (w4F m c)) _ (w5F m c)
      (Chain.e9_v0 m ρ c) ((Chain.e9_v7 m ρ c).trans (k3 m ρ c)) (Chain.e9_v8 m ρ c) (Chain.e9_arg10 m ρ c)).trans
    (congrArg (fun b => Cert.Gcn.arr2 (Cert.Gcn.layer (aF m c)
        (Cert.Gcn.s3 (xF m c) (aF m c) (w1F m c) (b1F m c) (w2F m c) (b2F m c) (w3F m c) (b3F m c) (w4F m c)) b (w5F m c)))
      (Cert.Gcn.bias_row_cast_fun _ _))

/-- After the sixth region: the last support, 64 columns wide. -/
theorem k5 : (dat5 (F := Ideal) (V11 m ρ) c).arrAt 4 cfg5.N
    = Cert.Gcn.s5 (xF m c) (aF m c) (w1F m c) (b1F m c) (w2F m c) (b2F m c) (w3F m c) (b3F m c) (w4F m c) (b4F m c) (w5F m c)
        (b5F m c) (w6F m c) :=
  (Layers.final5 (V11 m ρ) c (aF m c)
      (Cert.Gcn.s4 (xF m c) (aF m c) (w1F m c) (b1F m c) (w2F m c) (b2F m c) (w3F m c) (b3F m c) (w4F m c) (b4F m c) (w5F m c)) _
      (w6F m c)
      (Chain.e11_v0 m ρ c) ((Chain.e11_v9 m ρ c).trans (k4 m ρ c)) (Chain.e11_v10 m ρ c) (Chain.e11_arg12 m ρ c)).trans
    (congrArg (fun b => Cert.Gcn.arr2 (Cert.Gcn.layer (aF m c)
        (Cert.Gcn.s4 (xF m c) (aF m c) (w1F m c) (b1F m c) (w2F m c) (b2F m c) (w3F m c) (b3F m c) (w4F m c) (b4F m c) (w5F m c))
        b (w6F m c)))
      (Cert.Gcn.bias_row_cast_fun _ _))

/-- After the last region: the network's result. -/
theorem k6 : (dat6 (F := Ideal) (V13 m ρ) c).arrAt 3 cfg6.N
    = Cert.Gcn.net (xF m c) (aF m c) (w1F m c) (b1F m c) (w2F m c) (b2F m c) (w3F m c) (b3F m c) (w4F m c) (b4F m c) (w5F m c)
        (b5F m c) (w6F m c) (b6F m c) :=
  (Layers.final6 (V13 m ρ) c (aF m c)
      (Cert.Gcn.s5 (xF m c) (aF m c) (w1F m c) (b1F m c) (w2F m c) (b2F m c) (w3F m c) (b3F m c) (w4F m c) (b4F m c) (w5F m c)
        (b5F m c) (w6F m c)) _
      (Chain.e13_v0 m ρ c) ((Chain.e13_v11 m ρ c).trans (k5 m ρ c)) (Chain.e13_v12 m ρ c)).trans
    (congrArg (fun b => Cert.Gcn.arr2 (Cert.Gcn.output (aF m c)
        (Cert.Gcn.s5 (xF m c) (aF m c) (w1F m c) (b1F m c) (w2F m c) (b2F m c) (w3F m c) (b3F m c) (w4F m c) (b4F m c) (w5F m c)
          (b5F m c) (w6F m c)) b))
      (Cert.Gcn.bias_row_cast_fun _ _))

/-- THE RESULT BUFFER at the end of the run: the network's result of the arguments' launch contents. -/
theorem result : W14 m ρ c (Proc.devRef .tc main_v13)
    = Cert.Gcn.net (xF m c) (aF m c) (w1F m c) (b1F m c) (w2F m c) (b2F m c) (w3F m c) (b3F m c) (w4F m c) (b4F m c) (w5F m c)
        (b5F m c) (w6F m c) (b6F m c) :=
  (Chain.out_v13 m ρ c).trans (k6 m ρ c)

end Cert.KernelIdeal.Net

end
-- ==== Proof.RefLayers.lean ====
/-
  The reference network, layer by layer, as the graph convolution's layer functions.

  The reference computes six graph-convolution layers on the host, one operation at a time: a product with the
  weights, a product with the adjacency matrix, the bias row spread over the rows and added, a maximum against the
  zero constant, and the next product with weights. Read at an entry `(p, q)`, each product is the sum over the
  contracted coordinate, the spread bias is its entry `q`, and the maximum is the maximum of the two entries; so
  each stage that ends in a product with weights is `relu (a · s + b) · w` of the stage before it, and the last
  stage is `a · s + b`. Each statement below names one stage as the layer function of the previous stage, the
  previous stage kept as an opaque array.
-/
import proofs.«178979_g56126632624284_cont_9to1_m_1356_2_alg».proof.Proof.Gen.ReferenceIdeal.Read
import proofs.«178979_g56126632624284_cont_9to1_m_1356_2_alg».proof.Proof.GcnLayer

noncomputable section

open scoped BigOperators

namespace Cert.ReferenceIdeal.Layers

open Idealize.ShloMosaic Idealize.ShloMosaic.ValueIdx Cert.ReferenceIdeal Cert.ReferenceIdeal.Read

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))
  (x12 : (⟨S128x64, .f32⟩ : BufTy).Contents (Elt Ideal)) (x13 : (⟨S64, .f32⟩ : BufTy).Contents (Elt Ideal))

/-! ## The first support: the features times the first weights -/

theorem lidx_v0 (p : Fin 10000) (q : Fin 128) (k : Fin 128) : lidx_main_v0 (ix2 p q) k = ix2 p k :=
  funext fun a => Fin.ext (by match a with | ⟨0, _⟩ => rfl | ⟨1, _⟩ => rfl)

theorem ridx_v0 (p : Fin 10000) (q : Fin 128) (k : Fin 128) : ridx_main_v0 (ix2 p q) k = ix2 k q :=
  funext fun a => Fin.ext (by match a with | ⟨0, _⟩ => rfl | ⟨1, _⟩ => rfl)

/-- The first stage is the product of the features and the first weights. -/
theorem ref0 : val_main_v0 (F := Ideal) x0 x2 = Cert.Gcn.arr2 (Cert.Gcn.prod x0 x2) := by
  refine Cert.Gcn.ext2 fun p q => ?_
  rw [Cert.Gcn.arr2_ix2, val_main_v0_apply]
  unfold Cert.Gcn.prod
  refine Finset.sum_congr rfl fun k _ => ?_
  rw [lidx_v0, ridx_v0]

/-! ## The first hidden layer

  At the entry `(p, k)` the product with the adjacency matrix is the sum over the nodes `j` of the adjacency's
  `(p, j)` times the support's `(j, k)`; the bias, spread first to one row and then over all rows, is its entry
  `k`; the rectifier's constant is the zero word at every entry. -/

theorem lidx_v1 (p : Fin 10000) (q : Fin 128) (j : Fin 10000) : lidx_main_v1 (ix2 p q) j = ix2 p j :=
  funext fun a => Fin.ext (by match a with | ⟨0, _⟩ => rfl | ⟨1, _⟩ => rfl)

theorem ridx_v1 (p : Fin 10000) (q : Fin 128) (j : Fin 10000) : ridx_main_v1 (ix2 p q) j = ix2 j q :=
  funext fun a => Fin.ext (by match a with | ⟨0, _⟩ => rfl | ⟨1, _⟩ => rfl)

theorem idx_v3 (p : Fin 10000) (q : Fin 128) : idx_main_v2 (idx_main_v3 (ix2 p q)) = ix1 q :=
  funext fun a => Fin.ext (by match a with | ⟨0, _⟩ => rfl)

theorem lidx_v6 (p : Fin 10000) (q : Fin 128) (k : Fin 128) : lidx_main_v6 (ix2 p q) k = ix2 p k :=
  funext fun a => Fin.ext (by match a with | ⟨0, _⟩ => rfl | ⟨1, _⟩ => rfl)

theorem ridx_v6 (p : Fin 10000) (q : Fin 128) (k : Fin 128) : ridx_main_v6 (ix2 p q) k = ix2 k q :=
  funext fun a => Fin.ext (by match a with | ⟨0, _⟩ => rfl | ⟨1, _⟩ => rfl)

/-- The first rectified activation at an entry: the adjacency row times the support's column, plus the bias entry,
    against the zero word. -/
theorem hid1 (p : Fin 10000) (k : Fin 128) :
    val_main_v5 (F := Ideal) x0 x1 x2 x3 (ix2 p k)
      = Cert.Gcn.hidden x1 (val_main_v0 (F := Ideal) x0 x2) (fun k => x3 (ix1 k)) p k := by
  rw [val_main_v5_apply, val_main_v4_apply, val_main_v1_apply, val_main_v3_apply, val_main_v2_apply,
    val_main_call0_v0_apply, val_main_call0_cst_apply, idx_v3]
  unfold Cert.Gcn.hidden Cert.Gcn.prod
  generalize val_main_v0 (F := Ideal) x0 x2 = s
  simp only [lidx_v1, ridx_v1]
  rfl

/-- The stage after the first rectifier is the first hidden layer of the first support. -/
theorem ref1 : val_main_v6 (F := Ideal) x0 x1 x2 x3 x4
      = Cert.Gcn.arr2 (Cert.Gcn.layer x1 (val_main_v0 (F := Ideal) x0 x2) (fun k => x3 (ix1 k)) x4) := by
  refine Cert.Gcn.ext2 fun p q => ?_
  rw [Cert.Gcn.arr2_ix2, val_main_v6_apply]
  unfold Cert.Gcn.layer
  refine Finset.sum_congr rfl fun k _ => ?_
  rw [lidx_v6, ridx_v6, hid1]

/-! ## The second hidden layer -/

theorem lidx_v7 (p : Fin 10000) (q : Fin 128) (j : Fin 10000) : lidx_main_v7 (ix2 p q) j = ix2 p j :=
  funext fun a => Fin.ext (by match a with | ⟨0, _⟩ => rfl | ⟨1, _⟩ => rfl)

theorem ridx_v7 (p : Fin 10000) (q : Fin 128) (j : Fin 10000) : ridx_main_v7 (ix2 p q) j = ix2 j q :=
  funext fun a => Fin.ext (by match a with | ⟨0, _⟩ => rfl | ⟨1, _⟩ => rfl)

theorem idx_v9 (p : Fin 10000) (q : Fin 128) : idx_main_v8 (idx_main_v9 (ix2 p q)) = ix1 q :=
  funext fun a => Fin.ext (by match a with | ⟨0, _⟩ => rfl)

theorem lidx_v12 (p : Fin 10000) (q : Fin 128) (k : Fin 128) : lidx_main_v12 (ix2 p q) k = ix2 p k :=
  funext fun a => Fin.ext (by match a with | ⟨0, _⟩ => rfl | ⟨1, _⟩ => rfl)

theorem ridx_v12 (p : Fin 10000) (q : Fin 128) (k : Fin 128) : ridx_main_v12 (ix2 p q) k = ix2 k q :=
  funext fun a => Fin.ext (by match a with | ⟨0, _⟩ => rfl | ⟨1, _⟩ => rfl)

/-- The second rectified activation at an entry. -/
theorem hid2 (p : Fin 10000) (k : Fin 128) :
    val_main_v11 (F := Ideal) x0 x1 x2 x3 x4 x5 (ix2 p k)
      = Cert.Gcn.hidden x1 (val_main_v6 (F := Ideal) x0 x1 x2 x3 x4) (fun k => x5 (ix1 k)) p k := by
  rw [val_main_v11_apply, val_main_v10_apply, val_main_v7_apply, val_main_v9_apply, val_main_v8_apply,
    val_main_call1_v0_apply, val_main_call1_cst_apply, idx_v9]
  unfold Cert.Gcn.hidden Cert.Gcn.prod
  generalize val_main_v6 (F := Ideal) x0 x1 x2 x3 x4 = s
  simp only [lidx_v7, ridx_v7]
  rfl

/-- The stage after the second rectifier is the hidden layer of the stage after the first. -/
theorem ref2 : val_main_v12 (F := Ideal) x0 x1 x2 x3 x4 x5 x6
      = Cert.Gcn.arr2 (Cert.Gcn.layer x1 (val_main_v6 (F := Ideal) x0 x1 x2 x3 x4) (fun k => x5 (ix1 k)) x6) := by
  refine Cert.Gcn.ext2 fun p q => ?_
  rw [Cert.Gcn.arr2_ix2, val_main_v12_apply]
  unfold Cert.Gcn.layer
  refine Finset.sum_congr rfl fun k _ => ?_
  rw [lidx_v12, ridx_v12, hid2]

/-! ## The third hidden layer -/

theorem lidx_v13 (p : Fin 10000) (q : Fin 128) (j : Fin 10000) : lidx_main_v13 (ix2 p q) j = ix2 p j :=
  funext fun a => Fin.ext (by match a with | ⟨0, _⟩ => rfl | ⟨1, _⟩ => rfl)

theorem ridx_v13 (p : Fin 10000) (q : Fin 128) (j : Fin 10000) : ridx_main_v13 (ix2 p q) j = ix2 j q :=
  funext fun a => Fin.ext (by match a with | ⟨0, _⟩ => rfl | ⟨1, _⟩ => rfl)

theorem idx_v15 (p : Fin 10000) (q : Fin 128) : idx_main_v14 (idx_main_v15 (ix2 p q)) = ix1 q :=
  funext fun a => Fin.ext (by match a with | ⟨0, _⟩ => rfl)

theorem lidx_v18 (p : Fin 10000) (q : Fin 128) (k : Fin 128) : lidx_main_v18 (ix2 p q) k = ix2 p k :=
  funext fun a => Fin.ext (by match a with | ⟨0, _⟩ => rfl | ⟨1, _⟩ => rfl)

theorem ridx_v18 (p : Fin 10000) (q : Fin 128) (k : Fin 128) : ridx_main_v18 (ix2 p q) k = ix2 k q :=
  funext fun a => Fin.ext (by match a with | ⟨0, _⟩ => rfl | ⟨1, _⟩ => rfl)

/-- The third rectified activation at an entry. -/
theorem hid3 (p : Fin 10000) (k : Fin 128) :
    val_main_v17 (F := Ideal) x0 x1 x2 x3 x4 x5 x6 x7 (ix2 p k)
      = Cert.Gcn.hidden x1 (val_main_v12 (F := Ideal) x0 x1 x2 x3 x4 x5 x6) (fun k => x7 (ix1 k)) p k := by
  rw [val_main_v17_apply, val_main_v16_apply, val_main_v13_apply, val_main_v15_apply, val_main_v14_apply,
    val_main_call2_v0_apply, val_main_call2_cst_apply, idx_v15]
  unfold Cert.Gcn.hidden Cert.Gcn.prod
  generalize val_main_v12 (F := Ideal) x0 x1 x2 x3 x4 x5 x6 = s
  simp only [lidx_v13, ridx_v13]
  rfl

/-- The stage after the third rectifier is the hidden layer of the stage after the second. -/
theorem ref3 : val_main_v18 (F := Ideal) x0 x1 x2 x3 x4 x5 x6 x7 x8
      = Cert.Gcn.arr2 (Cert.Gcn.layer x1 (val_main_v12 (F := Ideal) x0 x1 x2 x3 x4 x5 x6) (fun k => x7 (ix1 k)) x8) := by
  refine Cert.Gcn.ext2 fun p q => ?_
  rw [Cert.Gcn.arr2_ix2, val_main_v18_apply]
  unfold Cert.Gcn.layer
  refine Finset.sum_congr rfl fun k _ => ?_
  rw [lidx_v18, ridx_v18, hid3]

/-! ## The fourth hidden layer -/

theorem lidx_v19 (p : Fin 10000) (q : Fin 128) (j : Fin 10000) : lidx_main_v19 (ix2 p q) j = ix2 p j :=
  funext fun a => Fin.ext (by match a with | ⟨0, _⟩ => rfl | ⟨1, _⟩ => rfl)

theorem ridx_v19 (p : Fin 10000) (q : Fin 128) (j : Fin 10000) : ridx_main_v19 (ix2 p q) j = ix2 j q :=
  funext fun a => Fin.ext (by match a with | ⟨0, _⟩ => rfl | ⟨1, _⟩ => rfl)

theorem idx_v21 (p : Fin 10000) (q : Fin 128) : idx_main_v20 (idx_main_v21 (ix2 p q)) = ix1 q :=
  funext fun a => Fin.ext (by match a with | ⟨0, _⟩ => rfl)

theorem lidx_v24 (p : Fin 10000) (q : Fin 128) (k : Fin 128) : lidx_main_v24 (ix2 p q) k = ix2 p k :=
  funext fun a => Fin.ext (by match a with | ⟨0, _⟩ => rfl | ⟨1, _⟩ => rfl)

theorem ridx_v24 (p : Fin 10000) (q : Fin 128) (k : Fin 128) : ridx_main_v24 (ix2 p q) k = ix2 k q :=
  funext fun a => Fin.ext (by match a with | ⟨0, _⟩ => rfl | ⟨1, _⟩ => rfl)

/-- The fourth rectified activation at an entry. -/
theorem hid4 (p : Fin 10000) (k : Fin 128) :
    val_main_v23 (F := Ideal) x0 x1 x2 x3 x4 x5 x6 x7 x8 x9 (ix2 p k)
      = Cert.Gcn.hidden x1 (val_main_v18 (F := Ideal) x0 x1 x2 x3 x4 x5 x6 x7 x8) (fun k => x9 (ix1 k)) p k := by
  rw [val_main_v23_apply, val_main_v22_apply, val_main_v19_apply, val_main_v21_apply, val_main_v20_apply,
    val_main_call3_v0_apply, val_main_call3_cst_apply, idx_v21]
  unfold Cert.Gcn.hidden Cert.Gcn.prod
  generalize val_main_v18 (F := Ideal) x0 x1 x2 x3 x4 x5 x6 x7 x8 = s
  simp only [lidx_v19, ridx_v19]
  rfl

/-- The stage after the fourth rectifier is the hidden layer of the stage after the third. -/
theorem ref4 : val_main_v24 (F := Ideal) x0 x1 x2 x3 x4 x5 x6 x7 x8 x9 x10
      = Cert.Gcn.arr2 (Cert.Gcn.layer x1 (val_main_v18 (F := Ideal) x0 x1 x2 x3 x4 x5 x6 x7 x8) (fun k => x9 (ix1 k)) x10) := by
  refine Cert.Gcn.ext2 fun p q => ?_
  rw [Cert.Gcn.arr2_ix2, val_main_v24_apply]
  unfold Cert.Gcn.layer
  refine Finset.sum_congr rfl fun k _ => ?_
  rw [lidx_v24, ridx_v24, hid4]

/-! ## The fifth hidden layer, into the narrower last weights -/

theorem lidx_v25 (p : Fin 10000) (q : Fin 128) (j : Fin 10000) : lidx_main_v25 (ix2 p q) j = ix2 p j :=
  funext fun a => Fin.ext (by match a with | ⟨0, _⟩ => rfl | ⟨1, _⟩ => rfl)

theorem ridx_v25 (p : Fin 10000) (q : Fin 128) (j : Fin 10000) : ridx_main_v25 (ix2 p q) j = ix2 j q :=
  funext fun a => Fin.ext (by match a with | ⟨0, _⟩ => rfl | ⟨1, _⟩ => rfl)

theorem idx_v27 (p : Fin 10000) (q : Fin 128) : idx_main_v26 (idx_main_v27 (ix2 p q)) = ix1 q :=
  funext fun a => Fin.ext (by match a with | ⟨0, _⟩ => rfl)

theorem lidx_v30 (p : Fin 10000) (q : Fin 64) (k : Fin 128) : lidx_main_v30 (ix2 p q) k = ix2 p k :=
  funext fun a => Fin.ext (by match a with | ⟨0, _⟩ => rfl | ⟨1, _⟩ => rfl)

theorem ridx_v30 (p : Fin 10000) (q : Fin 64) (k : Fin 128) : ridx_main_v30 (ix2 p q) k = ix2 k q :=
  funext fun a => Fin.ext (by match a with | ⟨0, _⟩ => rfl | ⟨1, _⟩ => rfl)

/-- The fifth rectified activation at an entry. -/
theorem hid5 (p : Fin 10000) (k : Fin 128) :
    val_main_v29 (F := Ideal) x0 x1 x2 x3 x4 x5 x6 x7 x8 x9 x10 x11 (ix2 p k)
      = Cert.Gcn.hidden x1 (val_main_v24 (F := Ideal) x0 x1 x2 x3 x4 x5 x6 x7 x8 x9 x10) (fun k => x11 (ix1 k)) p k := by
  rw [val_main_v29_apply, val_main_v28_apply, val_main_v25_apply, val_main_v27_apply, val_main_v26_apply,
    val_main_call4_v0_apply, val_main_call4_cst_apply, idx_v27]
  unfold Cert.Gcn.hidden Cert.Gcn.prod
  generalize val_main_v24 (F := Ideal) x0 x1 x2 x3 x4 x5 x6 x7 x8 x9 x10 = s
  simp only [lidx_v25, ridx_v25]
  rfl

/-- The stage after the fifth rectifier is the hidden layer of the stage after the fourth, sixty-four columns wide. -/
theorem ref5 : val_main_v30 (F := Ideal) x0 x1 x2 x3 x4 x5 x6 x7 x8 x9 x10 x11 x12
      = Cert.Gcn.arr2 (Cert.Gcn.layer x1 (val_main_v24 (F := Ideal) x0 x1 x2 x3 x4 x5 x6 x7 x8 x9 x10) (fun k => x11 (ix1 k)) x12) := by
  refine Cert.Gcn.ext2 fun p q => ?_
  rw [Cert.Gcn.arr2_ix2, val_main_v30_apply]
  unfold Cert.Gcn.layer
  refine Finset.sum_congr rfl fun k _ => ?_
  rw [lidx_v30, ridx_v30, hid5]

/-! ## The last layer: no rectifier -/

theorem lidx_v31 (p : Fin 10000) (q : Fin 64) (j : Fin 10000) : lidx_main_v31 (ix2 p q) j = ix2 p j :=
  funext fun a => Fin.ext (by match a with | ⟨0, _⟩ => rfl | ⟨1, _⟩ => rfl)

theorem ridx_v31 (p : Fin 10000) (q : Fin 64) (j : Fin 10000) : ridx_main_v31 (ix2 p q) j = ix2 j q :=
  funext fun a => Fin.ext (by match a with | ⟨0, _⟩ => rfl | ⟨1, _⟩ => rfl)

theorem idx_v33 (p : Fin 10000) (q : Fin 64) : idx_main_v32 (idx_main_v33 (ix2 p q)) = ix1 q :=
  funext fun a => Fin.ext (by match a with | ⟨0, _⟩ => rfl)

/-- The result is the adjacency matrix times the fifth layer's stage plus the last bias. -/
theorem ref6 : val_main_v34 (F := Ideal) x0 x1 x2 x3 x4 x5 x6 x7 x8 x9 x10 x11 x12 x13
      = Cert.Gcn.arr2 (Cert.Gcn.output x1 (val_main_v30 (F := Ideal) x0 x1 x2 x3 x4 x5 x6 x7 x8 x9 x10 x11 x12) (fun k => x13 (ix1 k))) := by
  refine Cert.Gcn.ext2 fun p q => ?_
  rw [Cert.Gcn.arr2_ix2, val_main_v34_apply, val_main_v31_apply, val_main_v33_apply, val_main_v32_apply, idx_v33]
  unfold Cert.Gcn.output Cert.Gcn.prod
  generalize val_main_v30 (F := Ideal) x0 x1 x2 x3 x4 x5 x6 x7 x8 x9 x10 x11 x12 = s
  simp only [lidx_v31, ridx_v31]
  rfl

end Cert.ReferenceIdeal.Layers

end
-- ==== Proof.RefNet.lean ====
import proofs.«178979_g56126632624284_cont_9to1_m_1356_2_alg».proof.Proof.RefLayers
import proofs.«178979_g56126632624284_cont_9to1_m_1356_2_alg».proof.Proof.GcnNet

noncomputable section

/-
  The reference's result as the six layers composed: each of its stages is the layer function of the stage before
  it, so the last stage is the network's result of its fourteen arguments, the biases read as functions of the column.
-/

namespace Cert.ReferenceIdeal.Layers

open Idealize.ShloMosaic Idealize.ShloMosaic.ValueIdx Cert.ReferenceIdeal Cert.ReferenceIdeal.Read

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))
  (x12 : (⟨S128x64, .f32⟩ : BufTy).Contents (Elt Ideal)) (x13 : (⟨S64, .f32⟩ : BufTy).Contents (Elt Ideal))

/-- The reference's last stage is the network's result of its arguments. -/
theorem ref_net : val_main_v34 (F := Ideal) x0 x1 x2 x3 x4 x5 x6 x7 x8 x9 x10 x11 x12 x13
    = Cert.Gcn.net x0 x1 x2 (fun k => x3 (ix1 k)) x4 (fun k => x5 (ix1 k)) x6 (fun k => x7 (ix1 k)) x8
        (fun k => x9 (ix1 k)) x10 (fun k => x11 (ix1 k)) x12 (fun k => x13 (ix1 k)) := by
  rw [ref6, ref5, ref4, ref3, ref2, ref1, ref0]
  rfl

end Cert.ReferenceIdeal.Layers

end
-- ==== Proof.lean ====
/-
  The certificate of a six-layer graph convolution over a dense adjacency matrix.

  The kernel program converts the adjacency matrix `a` to a narrower format once, computes the first support
  `s0 = x · w1` in one pallas_call, then five hidden layers, each ONE pallas_call over 25 blocks of 400 rows that
  computes `relu (a · s + b) · w` — the activation and the NEXT layer's support at once — and a last call that
  computes `a · s5 + b6`. The reference computes `h_k = relu (a · (h_(k-1) · w_k) + b_k)` layer by layer with
  whole matrix products and ends with `a · (h5 · w6) + b6`. On the extended reals, where a format change is the
  identity, both are the same composition: every support `s_k` is the reference's `h_k · w_(k+1)`, entry by entry
  the same sums of the same products, so no algebraic law and no finiteness of the inputs is needed. An entry of
  `a · s` depends on `a` only through its own row, which is why a block of 400 rows of `a` gives 400 rows of
  the layer and the 25 blocks tile the array.

  The three frames are the generated frame certificates (the reference's: its generated run with the result
  dropped); the idealization rewrote nothing, so `preserves` is trivial; the value claim reads the kernel program's
  result array back through the seven regions and the host operations between them to the network's result of the
  arguments' launch contents, and the reference's generated run stage by stage to the same function.
-/
import proofs.«178979_g56126632624284_cont_9to1_m_1356_2_alg».proof.Defs
import proofs.«178979_g56126632624284_cont_9to1_m_1356_2_alg».proof.Proof.Gen.Kernel
import proofs.«178979_g56126632624284_cont_9to1_m_1356_2_alg».proof.Proof.Gen.Kernel.Skeleton
import proofs.«178979_g56126632624284_cont_9to1_m_1356_2_alg».proof.Proof.Gen.Kernel.Launch
import proofs.«178979_g56126632624284_cont_9to1_m_1356_2_alg».proof.Proof.Gen.Kernel.Points
import proofs.«178979_g56126632624284_cont_9to1_m_1356_2_alg».proof.Proof.Gen.Kernel.Frame
import proofs.«178979_g56126632624284_cont_9to1_m_1356_2_alg».proof.Proof.Gen.KernelIdeal
import proofs.«178979_g56126632624284_cont_9to1_m_1356_2_alg».proof.Proof.Gen.KernelIdeal.Skeleton
import proofs.«178979_g56126632624284_cont_9to1_m_1356_2_alg».proof.Proof.Gen.KernelIdeal.Launch
import proofs.«178979_g56126632624284_cont_9to1_m_1356_2_alg».proof.Proof.Gen.KernelIdeal.Points
import proofs.«178979_g56126632624284_cont_9to1_m_1356_2_alg».proof.Proof.Gen.KernelIdeal.Frame
import proofs.«178979_g56126632624284_cont_9to1_m_1356_2_alg».proof.Proof.Gen.ReferenceIdeal
import proofs.«178979_g56126632624284_cont_9to1_m_1356_2_alg».proof.Proof.Gen.Pre_finite_inputs
import proofs.«178979_g56126632624284_cont_9to1_m_1356_2_alg».proof.Proof.Gen.ReferenceIdeal.Run
import proofs.«178979_g56126632624284_cont_9to1_m_1356_2_alg».proof.Proof.Gen.ReferenceIdeal.Read
import proofs.«178979_g56126632624284_cont_9to1_m_1356_2_alg».proof.Proof.ValueRun
import proofs.«178979_g56126632624284_cont_9to1_m_1356_2_alg».proof.Proof.KernelNet
import proofs.«178979_g56126632624284_cont_9to1_m_1356_2_alg».proof.Proof.RefNet
import Idealize.ShloMosaic.Adequacy
import Idealize.ShloMosaic.Init

noncomputable section

namespace Cert.Proof

open Idealize.ShloMosaic Idealize.SL.Sem

/-- The kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network's result of the arguments: the kernel program's result array read back
    through its regions, the reference's run read stage by stage, from memories that agree on the arguments. -/
theorem algebraic : Cert.algebraic_KernelIdeal_ReferenceIdeal := by
  intro m ρ m' ρ' _ hagree
  refine ⟨fun c => Cert.Gcn.net (Cert.KernelIdeal.Net.xF m c) (Cert.KernelIdeal.Net.aF m c) (Cert.KernelIdeal.Net.w1F m c)
      (Cert.KernelIdeal.Net.b1F m c) (Cert.KernelIdeal.Net.w2F m c) (Cert.KernelIdeal.Net.b2F m c) (Cert.KernelIdeal.Net.w3F m c)
      (Cert.KernelIdeal.Net.b3F m c) (Cert.KernelIdeal.Net.w4F m c) (Cert.KernelIdeal.Net.b4F m c) (Cert.KernelIdeal.Net.w5F m c)
      (Cert.KernelIdeal.Net.b5F m c) (Cert.KernelIdeal.Net.w6F m c) (Cert.KernelIdeal.Net.b6F m c), ?_, ?_⟩
  · exact (θ_run Cert.KernelIdeal.defs _ _).mono
      (fun r h c => ⟨(h c).1.trans (Cert.KernelIdeal.Net.result m ρ c), (h c).2⟩)
      (Cert.KernelIdeal.Chain.run_out (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.Read.val_main_v34_eq, Cert.ReferenceIdeal.Layers.ref_net,
      e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
